-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S640000 : S_.BroadcastsInDim S640000 (![] : Fin 0 → Fin S640000.rank)
  reducesTo_S640000_S_d0 : S640000.ReducesTo [0] S_

variable [Facts]

def fn_part4 {F : FTy → Type} [FloatOps F] (main_v63 : IVec S_ 1) (main_v65 : IVec S640000 1) (main_v67 : IVec S640000 1) : IVec S_ 1 :=
  let main_v68 : IVec S640000 1 := andi main_v65 main_v67
  let main_c_26 : IVec S_ 1 := constantI S_ 1 1#1
  let main_v69 : IVec S_ 1 := (fun x v => Host.reduce IntOp.andi x v reducesTo_S640000_S_d0 h_S_) main_v68 main_c_26
  let main_v70 : IVec S_ 1 := andi main_v63 main_v69
  main_v70

def fn_part3 {F : FTy → Type} [FloatOps F] (main_arg2 : IVec S640000 32) (main_arg13 : FVec F S512x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x256 .f32 := Host.absf main_arg13
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_c_24 : IVec S_ 32 := constantI S_ 32 4294667296#32
  let main_v64 : IVec S640000 32 := broadcastInDim S640000 ![] bcast_S_S640000 main_c_24
  let main_v65 : IVec S640000 1 := cmpi .sge main_arg2 main_v64
  let main_c_25 : IVec S_ 32 := constantI S_ 32 300000#32
  let main_v66 : IVec S640000 32 := broadcastInDim S640000 ![] bcast_S_S640000 main_c_25
  let main_v67 : IVec S640000 1 := cmpi .slt main_arg2 main_v66
  fn_part4 (F := F) main_v63 main_v65 main_v67

def fn_part2 {F : FTy → Type} [FloatOps F] (main_arg2 : IVec S640000 32) (main_arg9 : FVec F S256x256 .f32) (main_arg10 : FVec F S256 .f32) (main_arg11 : FVec F S256x256 .f32) (main_arg12 : FVec F S256 .f32) (main_arg13 : FVec F S512x256 .f32) (main_arg14 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg2 main_arg13 main_arg14 main_v48 main_v49 main_v50

def fn_part1 {F : FTy → Type} [FloatOps F] (main_arg2 : IVec S640000 32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S512x256 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg9 main_arg10 main_arg11 main_arg12 main_arg13 main_arg14 main_v33

def fn {F : FTy → Type} [FloatOps F] (main_arg0 : FVec F S100000x128 .f32) (main_arg1 : IVec S640000 32) (main_arg2 : IVec S640000 32) (main_arg3 : FVec F S512x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S512x256 .f32) (main_arg14 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg6 main_arg7 main_arg8 main_arg9 main_arg10 main_arg11 main_arg12 main_arg13 main_arg14 main_v13 main_v16
-- ==== Kernel.lean ====
abbrev S100000x128 : Shape := ⟨2, ![100000, 128]⟩
abbrev S640000 : Shape := ⟨1, ![640000]⟩
abbrev S512x256 : Shape := ⟨2, ![512, 256]⟩
abbrev S256 : Shape := ⟨1, ![256]⟩
abbrev S256x256 : Shape := ⟨2, ![256, 256]⟩
abbrev S_ : Shape := ⟨0, ![]⟩
abbrev S640000x1 : Shape := ⟨2, ![640000, 1]⟩
abbrev S640000x128 : Shape := ⟨2, ![640000, 128]⟩
abbrev S300000x128 : Shape := ⟨2, ![300000, 128]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩

abbrev nBuf : Space → Nat
  | .hbm => 73
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S_, .i1⟩
  | .hbm, ⟨31, _⟩ => ⟨S640000, .i1⟩
  | .hbm, ⟨32, _⟩ => ⟨S640000, .i1⟩
  | .hbm, ⟨33, _⟩ => ⟨S640000, .i1⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S300000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S300000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S512x256, .bf16⟩
  | .hbm, ⟨67, _⟩ => ⟨S512x256, .bf16⟩
  | .hbm, ⟨68, _⟩ => ⟨S256x256, .bf16⟩
  | .hbm, ⟨69, _⟩ => ⟨S256x256, .bf16⟩
  | .hbm, ⟨70, _⟩ => ⟨S256x256, .bf16⟩
  | .hbm, ⟨71, _⟩ => ⟨S256x256, .bf16⟩
  | .hbm, ⟨72, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S512x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S512x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v0 : Ref sig .tc := ⟨.hbm, 36, rfl⟩
abbrev main_c_0 : Ref sig .tc := ⟨.hbm, 37, rfl⟩
abbrev main_v1 : Ref sig .tc := ⟨.hbm, 38, rfl⟩
abbrev main_v2 : Ref sig .tc := ⟨.hbm, 39, rfl⟩
abbrev main_c_1 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst : Ref sig .tc := ⟨.hbm, 46, rfl⟩
abbrev main_v8 : Ref sig .tc := ⟨.hbm, 47, rfl⟩
abbrev main_c_2 : Ref sig .tc := ⟨.hbm, 48, rfl⟩
abbrev main_v9 : Ref sig .tc := ⟨.hbm, 49, rfl⟩
abbrev main_v10 : Ref sig .tc := ⟨.hbm, 50, rfl⟩
abbrev main_c_3 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S300000x128 : S_.BroadcastsInDim S300000x128 (![] : Fin 0 → Fin S300000x128.rank)
  slices_S300000x128_S100000x128_0_0 : S300000x128.Slices ![0, 0] S100000x128
  slices_S300000x128_S100000x128_100000_0 : S300000x128.Slices ![100000, 0] S100000x128
  slices_S300000x128_S100000x128_200000_0 : S300000x128.Slices ![200000, 0] S100000x128
  shapeCasts_S256_S1x256 : S256.ShapeCasts S1x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S512x256_S256x256_0_0 : ∀ a, (![0, 0] : Fin 2 → Nat) a + S256x256.size a ≤ S512x256.size a
  h_S256x256 : 0 < S256x256.numel
  shapeCasts_S256x256_S256x256 : S256x256.ShapeCasts S256x256
  inb_S512x256_S256x256_256_0 : ∀ a, (![256, 0] : Fin 2 → Nat) a + S256x256.size a ≤ S512x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  inb_S2000x256_S2000x256_0_0 : ∀ a, (![0, 0] : Fin 2 → Nat) a + S2000x256.size a ≤ S2000x256.size a
  h_S2000x256 : 0 < S2000x256.numel
  gather_S100000x128_S640000x1_S640000x128_1_0_n_n_0_1_1128_wf : GatherDims.WF S100000x128 S640000x1 S640000x128 [1] [0] [] [0] [] 1 ![1, 128]
  scatter_S300000x128_S640000x1_S640000x128_1_0_0_1_wf : ScatterDims.WF S300000x128 S640000x1 S640000x128 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S512x256.size a
  hwx0_14 : ∀ i : grid0.Coords, EltTy.bits .bf16 = 32 ∨ (Rect.block (s := S512x256) S512x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x256.size a ≤ S100000x256.size a
  hwx0_16 : ∀ i : grid0.Coords, EltTy.bits .f32 = 32 ∨ (Rect.block (s := S100000x256) S2000x256.size (cc0_transform_16 i) (hinb0_16 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S300000x128_S640000x1_S640000x128_1_0_0_1 : ScatterDims S300000x128 S640000x1 S640000x128 where
  updateWindowDims := [1]
  insertedWindowDims := [0]
  scatterDimsToOperandDims := [0]
  indexVectorDim := 1
  wf := scatter_S300000x128_S640000x1_S640000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v30) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S512x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v31) S2000x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S512x256 : Shape := ⟨2, ![512, 256]⟩
abbrev S256 : Shape := ⟨1, ![256]⟩
abbrev S256x256 : Shape := ⟨2, ![256, 256]⟩
abbrev S1x100000x1x128 : Shape := ⟨4, ![1, 100000, 1, 128]⟩
abbrev S3x100000x1x128 : Shape := ⟨4, ![3, 100000, 1, 128]⟩
abbrev S300000x128 : Shape := ⟨2, ![300000, 128]⟩
abbrev S_ : Shape := ⟨0, ![]⟩
abbrev S640000x1 : Shape := ⟨2, ![640000, 1]⟩
abbrev S640000x128 : Shape := ⟨2, ![640000, 128]⟩
abbrev S100000x512 : Shape := ⟨2, ![100000, 512]⟩
abbrev S100000x256 : Shape := ⟨2, ![100000, 256]⟩
abbrev S1x256 : Shape := ⟨2, ![1, 256]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S1x100000x1x128, .f32⟩
  | .hbm, ⟨16, _⟩ => ⟨S3x100000x1x128, .f32⟩
  | .hbm, ⟨17, _⟩ => ⟨S300000x128, .f32⟩
  | .hbm, ⟨18, _⟩ => ⟨S_, .f32⟩
  | .hbm, ⟨19, _⟩ => ⟨S300000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S300000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x512, .f32⟩
  | .hbm, ⟨42, _⟩ => ⟨S100000x256, .f32⟩
  | .hbm, ⟨43, _⟩ => ⟨S1x256, .f32⟩
  | .hbm, ⟨44, _⟩ => ⟨S100000x256, .f32⟩
  | .hbm, ⟨45, _⟩ => ⟨S100000x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .f32⟩
  | .hbm, ⟨51, _⟩ => ⟨S_, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S100000x256, .f32⟩
  | .hbm, ⟨56, _⟩ => ⟨S1x256, .f32⟩
  | .hbm, ⟨57, _⟩ => ⟨S100000x256, .f32⟩
  | .hbm, ⟨58, _⟩ => ⟨S100000x256, .f32⟩
  | .hbm, ⟨59, _⟩ => ⟨S100000x256, .f32⟩
  | .hbm, ⟨60, _⟩ => ⟨S1x256, .f32⟩
  | .hbm, ⟨61, _⟩ => ⟨S100000x256, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S_, .f32⟩
  | .hbm, ⟨66, _⟩ => ⟨S100000x256, .f32⟩
  | .hbm, ⟨67, _⟩ => ⟨S100000x256, .f32⟩
  | .hbm, ⟨68, _⟩ => ⟨S_, .f32⟩
  | .hbm, ⟨69, _⟩ => ⟨S100000x256, .f32⟩
  | .hbm, ⟨70, _⟩ => ⟨S100000x256, .f32⟩
  | .hbm, ⟨71, _⟩ => ⟨S100000x256, .f32⟩
  | .hbm, ⟨72, _⟩ => ⟨S100000x256, .f32⟩
  | .hbm, ⟨73, _⟩ => ⟨S1x256, .f32⟩
  | .hbm, ⟨74, _⟩ => ⟨S100000x256, .f32⟩
  | .hbm, ⟨75, _⟩ => ⟨S100000x256, .f32⟩
  | .hbm, ⟨76, _⟩ => ⟨S100000x256, .f32⟩
  | .hbm, ⟨77, _⟩ => ⟨S100000x256, .f32⟩
  | .hbm, ⟨78, _⟩ => ⟨S1x256, .f32⟩
  | .hbm, ⟨79, _⟩ => ⟨S100000x256, .f32⟩
  | .hbm, ⟨80, _⟩ => ⟨S100000x256, .f32⟩
  | .hbm, ⟨81, _⟩ => ⟨S100000x256, .f32⟩
  | .hbm, ⟨82, _⟩ => ⟨S100000x256, .f32⟩
  | .hbm, ⟨83, _⟩ => ⟨S_, .f32⟩
  | .hbm, ⟨84, _⟩ => ⟨S100000x256, .f32⟩
  | .hbm, ⟨85, _⟩ => ⟨S100000x256, .f32⟩
  | .hbm, ⟨86, _⟩ => ⟨S_, .f32⟩
  | .hbm, ⟨87, _⟩ => ⟨S100000x256, .f32⟩
  | .hbm, ⟨88, _⟩ => ⟨S100000x256, .f32⟩
  | .hbm, ⟨89, _⟩ => ⟨S100000x256, .f32⟩
  | .hbm, ⟨90, _⟩ => ⟨S100000x256, .f32⟩
  | .hbm, ⟨91, _⟩ => ⟨S1x256, .f32⟩
  | .hbm, ⟨92, _⟩ => ⟨S100000x256, .f32⟩
  | .hbm, ⟨93, _⟩ => ⟨S100000x256, .f32⟩
  | .hbm, ⟨94, _⟩ => ⟨S100000x256, .f32⟩
  | .hbm, ⟨95, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩

abbrev nD : Nat := 1
abbrev τ : Topo := Topo.v7x

variable {F : FTy → Type} [FloatOps F]

class Facts₀ : Prop where
  shapeCasts_S100000x128_S1x100000x1x128 : S100000x128.ShapeCasts S1x100000x1x128
  bcast_S1x100000x1x128_S3x100000x1x128_0_1_2_3 : S1x100000x1x128.BroadcastsInDim S3x100000x1x128 (![0, 1, 2, 3] : Fin 4 → Fin S3x100000x1x128.rank)
  shapeCasts_S3x100000x1x128_S300000x128 : S3x100000x1x128.ShapeCasts S300000x128
  bcast_S_S300000x128 : S_.BroadcastsInDim S300000x128 (![] : Fin 0 → Fin S300000x128.rank)
  bcast_S_S640000 : S_.BroadcastsInDim S640000 (![] : Fin 0 → Fin S640000.rank)
  bcast_S640000_S640000x1_0 : S640000.BroadcastsInDim S640000x1 (![0] : Fin 1 → Fin S640000x1.rank)
  slices_S300000x128_S100000x128_0_0 : S300000x128.Slices ![0, 0] S100000x128
  slices_S300000x128_S100000x128_100000_0 : S300000x128.Slices ![100000, 0] S100000x128
  slices_S300000x128_S100000x128_200000_0 : S300000x128.Slices ![200000, 0] S100000x128
  concatenates_S100000x128_S100000x128_S100000x128_S100000x128_S100000x512_d1 : Shape.Concatenates [S100000x128, S100000x128, S100000x128, S100000x128] S100000x512 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S300000x128_S640000x1_S640000x128_1_0_n_n_0_1_1128_wf : GatherDims.WF S300000x128 S640000x1 S640000x128 [1] [0] [] [0] [] 1 ![1, 128]
  scatter_S300000x128_S640000x1_S640000x128_1_0_0_1_wf : ScatterDims.WF S300000x128 S640000x1 S640000x128 [1] [0] [0] 1
  dot_S100000x512_S512x256_S100000x256_1_0_0_1_n_n_wf : DotDims.WF S100000x512 S512x256 S100000x256 [1] [0] [0] [1] [] []
  dot_S100000x256_S256x256_S100000x256_1_0_0_1_n_n_wf : DotDims.WF S100000x256 S256x256 S100000x256 [1] [0] [0] [1] [] []

variable [Facts₀]

def gather_S300000x128_S640000x1_S640000x128_1_0_n_n_0_1_1128 : GatherDims S300000x128 S640000x1 S640000x128 where
  offsetDims := [1]
  collapsedSliceDims := [0]
  operandBatchingDims := []
  startIndicesBatchingDims := []
  startIndexMap := [0]
  indexVectorDim := 1
  sliceSizes := ![1, 128]
  wf := gather_S300000x128_S640000x1_S640000x128_1_0_n_n_0_1_1128_wf
def scatter_S300000x128_S640000x1_S640000x128_1_0_0_1 : ScatterDims S300000x128 S640000x1 S640000x128 where
  updateWindowDims := [1]
  insertedWindowDims := [0]
  scatterDimsToOperandDims := [0]
  indexVectorDim := 1
  wf := scatter_S300000x128_S640000x1_S640000x128_1_0_0_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.SrcRange.lean ====
import proofs.«413987_j66022237274250_3_alg».proof.Pre_finite_inputs
import Idealize.ShloMosaic.Lib.ReduceAll
import Idealize.ShloMosaic.Lib.ValueIdx

/-! The range of the source indices, read off the precondition.

    The precondition ends in the conjunct "every source index `s` has `-300000 ≤ s < 300000`": the indices the
    reference's gather from the thrice-tiled features takes without clamping. Here that conjunct is read back, edge by
    edge, as a pair of integer inequalities. -/

namespace Cert.SrcRange

open Idealize.ShloMosaic Cert.Pre_finite_inputs

instance : Subsingleton S_.Idx := ⟨fun _ _ => funext fun d => d.elim0⟩

theorem toInt_lower : (4294667296#32 : BitVec 32).toInt = -300000 := by decide
theorem toInt_upper : (300000#32 : BitVec 32).toInt = 300000 := by decide

/-- Where the precondition holds, every source index lies in `[-300000, 300000)`. -/
theorem src_range {F : FTy → Type} [FloatOps F] [Cert.Pre_finite_inputs.Facts]
    (a0 : FVec F S100000x128 .f32) (a1 a2 : IVec S640000 32) (a3 : FVec F S512x256 .f32) (a4 : FVec F S256 .f32)
    (a5 : FVec F S256x256 .f32) (a6 : FVec F S256 .f32) (a7 : FVec F S256x256 .f32) (a8 : FVec F S256 .f32)
    (a9 : FVec F S256x256 .f32) (a10 : FVec F S256 .f32) (a11 : FVec F S256x256 .f32) (a12 : FVec F S256 .f32)
    (a13 : FVec F S512x256 .f32) (a14 : FVec F S256 .f32)
    (h : Cert.Pre_finite_inputs.fn (F := F) a0 a1 a2 a3 a4 a5 a6 a7 a8 a9 a10 a11 a12 a13 a14 = fun _ => 1#1)
    (e : S640000.Idx) : -300000 ≤ (a2 e).toInt ∧ (a2 e).toInt < 300000 := by
  have h0 := congrFun h ValueIdx.ix0
  dsimp only [fn, fn_part1, fn_part2, fn_part3, fn_part4] at h0
  have h1 := (IntOp.andi_eq_one.1 h0).2
  have h2 := Host.reduce_andi_all _ _ _ _ _ h1 e
  obtain ⟨hge, hlt⟩ := IntOp.andi_eq_one.1 h2
  have hge' := IntOp.cmpi_sge.1 hge
  have hlt' := IntOp.cmpi_slt.1 hlt
  change (4294667296#32 : BitVec 32).toInt ≤ (a2 e).toInt at hge'
  change (a2 e).toInt < (300000#32 : BitVec 32).toInt at hlt'
  rw [toInt_lower] at hge'
  rw [toInt_upper] at hlt'
  exact ⟨hge', hlt'⟩

end Cert.SrcRange
-- ==== Proof.Spec.lean ====
import Idealize.ShloMosaic.PureOps.Ideal
import Idealize.ShloMosaic.Lib.ValueIdx

/-! The layer, row by row.

    Node `r`'s output row is a function of its feature row alone: the 512 numbers `f` made of the node's own 128
    features followed by the three 128-wide sums of neighbour features that the scatter-add left in rows `r`,
    `100000 + r` and `200000 + r` of the aggregate. With `silu z = z · 1 / (1 + e^(-z))`,
    `h₀ = silu (f · W_in + b_in)`, two residual blocks `h ↦ silu (h · W₁ + b₁) · W₂ + b₂ + h`, and the skip
    `f · W_skip + b_skip` added at the end. Every sum is a finite sum of extended reals, taken in no particular order. -/

noncomputable section

namespace Cert.Spec

open Idealize.ShloMosaic Idealize.ShloMosaic.ValueIdx

/-- Node features, and each 100000-row third of the aggregate. -/
abbrev SX : Shape := ⟨2, ![100000, 128]⟩
/-- The aggregate over the three hops. -/
abbrev SA : Shape := ⟨2, ![300000, 128]⟩
/-- The two stem weights. -/
abbrev SW : Shape := ⟨2, ![512, 256]⟩
/-- A residual block's weight. -/
abbrev SM : Shape := ⟨2, ![256, 256]⟩
/-- A bias. -/
abbrev SB : Shape := ⟨1, ![256]⟩

/-- `silu z = z · σ(z)`, `σ` the logistic function. -/
def silu (z : EReal) : EReal := z * Ideal.logistic z

/-- A 512-wide row through a stem weight and bias: `(f · W + b)_j`. -/
def stem (f : Fin 512 → EReal) (W : SW.Idx → EReal) (b : SB.Idx → EReal) (j : Fin 256) : EReal :=
  (∑ k : Fin 512, f k * W (ix2 k j)) + b (ix1 j)

/-- A 256-wide row through a block weight and bias: `(h · W + b)_j`. -/
def dense (h : Fin 256 → EReal) (W : SM.Idx → EReal) (b : SB.Idx → EReal) (j : Fin 256) : EReal :=
  (∑ k : Fin 256, h k * W (ix2 k j)) + b (ix1 j)

/-- One residual block: `silu (h · W₁ + b₁) · W₂ + b₂ + h`. -/
def block (h : Fin 256 → EReal) (W1 : SM.Idx → EReal) (b1 : SB.Idx → EReal) (W2 : SM.Idx → EReal) (b2 : SB.Idx → EReal)
    (j : Fin 256) : EReal :=
  dense (fun k => silu (dense h W1 b1 k)) W2 b2 j + h j

/-- The output row of a node with feature row `f`. -/
def mlp (f : Fin 512 → EReal) (Win : SW.Idx → EReal) (bin : SB.Idx → EReal)
    (W10 : SM.Idx → EReal) (b10 : SB.Idx → EReal) (W20 : SM.Idx → EReal) (b20 : SB.Idx → EReal)
    (W11 : SM.Idx → EReal) (b11 : SB.Idx → EReal) (W21 : SM.Idx → EReal) (b21 : SB.Idx → EReal)
    (Wskip : SW.Idx → EReal) (bskip : SB.Idx → EReal) (j : Fin 256) : EReal :=
  block (block (fun k => silu (stem f Win bin k)) W10 b10 W20 b20) W11 b11 W21 b21 j + stem f Wskip bskip j

/-- Four 128-wide rows laid end to end. -/
def row4 (a b c d : Fin 128 → EReal) (k : Fin 512) : EReal :=
  if h0 : k.val < 128 then a ⟨k.val, h0⟩
  else if h1 : k.val < 256 then b ⟨k.val - 128, by omega⟩
  else if h2 : k.val < 384 then c ⟨k.val - 256, by omega⟩
  else d ⟨k.val - 384, by omega⟩

/-- Node `r`'s feature row: its own features, then rows `r`, `100000 + r`, `200000 + r` of the aggregate. -/
def featRow (X : SX.Idx → EReal) (A : SA.Idx → EReal) (r : Fin 100000) : Fin 512 → EReal :=
  row4 (fun q => X (ix2 r q)) (fun q => A (ix2 ⟨r.val, by omega⟩ q))
    (fun q => A (ix2 ⟨100000 + r.val, by omega⟩ q)) (fun q => A (ix2 ⟨200000 + r.val, by omega⟩ q))

/-- A layer's output array: [100000, 256]. -/
abbrev SO : Shape := ⟨2, ![100000, 256]⟩

/-- The whole output: row `r` is the row function of node `r`'s feature row. -/
def out (X : SX.Idx → EReal) (A : SA.Idx → EReal) (Win : SW.Idx → EReal) (bin : SB.Idx → EReal)
    (W10 : SM.Idx → EReal) (b10 : SB.Idx → EReal) (W20 : SM.Idx → EReal) (b20 : SB.Idx → EReal)
    (W11 : SM.Idx → EReal) (b11 : SB.Idx → EReal) (W21 : SM.Idx → EReal) (b21 : SB.Idx → EReal)
    (Wskip : SW.Idx → EReal) (bskip : SB.Idx → EReal) : SO.Idx → EReal :=
  fun i => mlp (featRow X A (i 0)) Win bin W10 b10 W20 b20 W11 b11 W21 b21 Wskip bskip (i 1)

/-- Two 128-wide rows laid end to end. -/
def row2 (a b : Fin 128 → EReal) (k : Fin 256) : EReal :=
  if h0 : k.val < 128 then a ⟨k.val, h0⟩ else b ⟨k.val - 128, by omega⟩

/-- A sum over 512 columns is the sum over the first 256 plus the sum over the last 256. -/
theorem sum_halves (g : Fin 512 → EReal) :
    ∑ k : Fin 512, g k = (∑ k : Fin 256, g ⟨k.val, by omega⟩) + ∑ k : Fin 256, g ⟨256 + k.val, by omega⟩ := by
  exact Fin.sum_univ_add (a := 256) (b := 256) (f := fun i : Fin (256 + 256) => g i)

/-- The stem over a row of four pieces, with the contraction cut in two: the first two pieces against the weight's upper
    half plus the last two against its lower half. -/
theorem stem_row4 (a b c d : Fin 128 → EReal) (W : SW.Idx → EReal) (bias : SB.Idx → EReal) (j : Fin 256) :
    stem (row4 a b c d) W bias j
      = ((∑ k : Fin 256, row2 a b k * W (ix2 ⟨k.val, by omega⟩ j))
          + ∑ k : Fin 256, row2 c d k * W (ix2 ⟨256 + k.val, by omega⟩ j)) + bias (ix1 j) := by
  unfold stem
  rw [sum_halves]
  congr 2

end Cert.Spec

end
-- ==== Proof.BlockRead.lean ====
import proofs.«413987_j66022237274250_3_alg».proof.Proof.Gen.KernelIdeal.Frame
import Idealize.ShloMosaic.Lib.ValueIdx

/-! The entries the body loads, as entries of the arrays the region found.

    Grid point `t` stages rows `2000 t … 2000 t + 1999` of the node features and of each third of the aggregate, and
    the whole of every weight and bias (those windows' block index is 0 at every point). So the entry at `(p, a)` of a
    loaded row block is the array's entry at `(2000 t + p, a)`; the entry at `(k, j)` of the upper (lower) half loaded
    from a stem weight is the weight's entry at `(k, j)` (at `(256 + k, j)`); a block weight's or a bias row's entry
    is the array's entry at the same place. -/

noncomputable section

namespace Cert.BlockRead

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block index of the row windows and of the output window at point `t` is `(t, 0)`; there are 50 points. -/
theorem row_idx : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_16.index t (0 : Fin 2) = t.val ∧ win0_16.index t (1 : Fin 2) = 0 :=
  (by decide +kernel : ∀ t : Fin grid0.N, _)

/-- The block index of every weight and bias window is `(0, 0)` at every point. -/
theorem res_idx : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-- Row `2000 t + p` is a row of the array. -/
theorem row_lt (t : Fin cfg0.N) (p : Fin 2000) : t.val * 2000 + p.val < 100000 := by
  have := (row_idx t).1; omega

/-- Row window 0: the loaded block's entry `(p, a)` is the array's entry `(2000 t + p, a)`. -/
theorem ld_w0 (c : Dev nD) (t : Fin cfg0.N) (p : Fin 2000) (a : Fin 128) :
    View.ld (iblk m c 0 t) r0_0 (ix2 p a)
      = (V m c main_arg0 : S100000x128.Idx → F .f32) (ix2 ⟨t.val * 2000 + p.val, row_lt t p⟩ a) := by
  have hf := row_idx t
  have e0 : win0_0.index t (0 : Fin 2) = t.val := hf.2.1
  have e1 : win0_0.index t (1 : Fin 2) = 0 := hf.2.2.1
  show (V m c main_arg0 : S100000x128.Idx → F .f32) (((cfg0.win 0).blk t).view.emb (r0_0.idx (ix2 p a))) = _
  congr 1; funext d; apply Fin.ext
  match d with
  | ⟨0, _⟩ => show win0_0.index t (0 : Fin 2) * 2000 + 1 * (0 + 1 * p.val) = t.val * 2000 + p.val; omega
  | ⟨1, _⟩ => show win0_0.index t (1 : Fin 2) * 128 + 1 * (0 + 1 * a.val) = a.val; omega

/-- Row window 1: the loaded block's entry `(p, a)` is the array's entry `(2000 t + p, a)`. -/
theorem ld_w1 (c : Dev nD) (t : Fin cfg0.N) (p : Fin 2000) (a : Fin 128) :
    View.ld (iblk m c 1 t) r0_0 (ix2 p a)
      = (V m c main_v16 : S100000x128.Idx → F .f32) (ix2 ⟨t.val * 2000 + p.val, row_lt t p⟩ a) := by
  have hf := row_idx t
  have e0 : win0_1.index t (0 : Fin 2) = t.val := hf.2.2.2.1
  have e1 : win0_1.index t (1 : Fin 2) = 0 := hf.2.2.2.2.1
  show (V m c main_v16 : S100000x128.Idx → F .f32) (((cfg0.win 1).blk t).view.emb (r0_0.idx (ix2 p a))) = _
  congr 1; funext d; apply Fin.ext
  match d with
  | ⟨0, _⟩ => show win0_1.index t (0 : Fin 2) * 2000 + 1 * (0 + 1 * p.val) = t.val * 2000 + p.val; omega
  | ⟨1, _⟩ => show win0_1.index t (1 : Fin 2) * 128 + 1 * (0 + 1 * a.val) = a.val; omega

/-- Row window 2: the loaded block's entry `(p, a)` is the array's entry `(2000 t + p, a)`. -/
theorem ld_w2 (c : Dev nD) (t : Fin cfg0.N) (p : Fin 2000) (a : Fin 128) :
    View.ld (iblk m c 2 t) r0_0 (ix2 p a)
      = (V m c main_v17 : S100000x128.Idx → F .f32) (ix2 ⟨t.val * 2000 + p.val, row_lt t p⟩ a) := by
  have hf := row_idx t
  have e0 : win0_2.index t (0 : Fin 2) = t.val := hf.2.2.2.2.2.1
  have e1 : win0_2.index t (1 : Fin 2) = 0 := hf.2.2.2.2.2.2.1
  show (V m c main_v17 : S100000x128.Idx → F .f32) (((cfg0.win 2).blk t).view.emb (r0_0.idx (ix2 p a))) = _
  congr 1; funext d; apply Fin.ext
  match d with
  | ⟨0, _⟩ => show win0_2.index t (0 : Fin 2) * 2000 + 1 * (0 + 1 * p.val) = t.val * 2000 + p.val; omega
  | ⟨1, _⟩ => show win0_2.index t (1 : Fin 2) * 128 + 1 * (0 + 1 * a.val) = a.val; omega

/-- Row window 3: the loaded block's entry `(p, a)` is the array's entry `(2000 t + p, a)`. -/
theorem ld_w3 (c : Dev nD) (t : Fin cfg0.N) (p : Fin 2000) (a : Fin 128) :
    View.ld (iblk m c 3 t) r0_0 (ix2 p a)
      = (V m c main_v18 : S100000x128.Idx → F .f32) (ix2 ⟨t.val * 2000 + p.val, row_lt t p⟩ a) := by
  have hf := row_idx t
  have e0 : win0_3.index t (0 : Fin 2) = t.val := hf.2.2.2.2.2.2.2.1
  have e1 : win0_3.index t (1 : Fin 2) = 0 := hf.2.2.2.2.2.2.2.2.1
  show (V m c main_v18 : S100000x128.Idx → F .f32) (((cfg0.win 3).blk t).view.emb (r0_0.idx (ix2 p a))) = _
  congr 1; funext d; apply Fin.ext
  match d with
  | ⟨0, _⟩ => show win0_3.index t (0 : Fin 2) * 2000 + 1 * (0 + 1 * p.val) = t.val * 2000 + p.val; omega
  | ⟨1, _⟩ => show win0_3.index t (1 : Fin 2) * 128 + 1 * (0 + 1 * a.val) = a.val; omega

/-- Stem weight window 4, upper half: entry `(k, j)` of the loaded half is the array's entry `(k, j)`. -/
theorem ld_w4_top (c : Dev nD) (t : Fin cfg0.N) (k j : Fin 256) :
    View.ld (iblk m c 4 t) r0_1 (ix2 k j) = (V m c main_v25 : S512x256.Idx → F .bf16) (ix2 ⟨k.val, by omega⟩ j) := by
  have hf := res_idx t
  have e0 : win0_4.index t (0 : Fin 2) = 0 := hf.1
  have e1 : win0_4.index t (1 : Fin 2) = 0 := hf.2.1
  show (V m c main_v25 : S512x256.Idx → F .bf16) (((cfg0.win 4).blk t).view.emb (r0_1.idx (ix2 k j))) = _
  congr 1; funext d; apply Fin.ext
  match d with
  | ⟨0, _⟩ => show win0_4.index t (0 : Fin 2) * 512 + 1 * (0 + 1 * k.val) = k.val; omega
  | ⟨1, _⟩ => show win0_4.index t (1 : Fin 2) * 256 + 1 * (0 + 1 * j.val) = j.val; omega

/-- Stem weight window 4, lower half: entry `(k, j)` of the loaded half is the array's entry `(256 + k, j)`. -/
theorem ld_w4_bot (c : Dev nD) (t : Fin cfg0.N) (k j : Fin 256) :
    View.ld (iblk m c 4 t) r0_2 (ix2 k j) = (V m c main_v25 : S512x256.Idx → F .bf16) (ix2 ⟨256 + k.val, by omega⟩ j) := by
  have hf := res_idx t
  have e0 : win0_4.index t (0 : Fin 2) = 0 := hf.1
  have e1 : win0_4.index t (1 : Fin 2) = 0 := hf.2.1
  show (V m c main_v25 : S512x256.Idx → F .bf16) (((cfg0.win 4).blk t).view.emb (r0_2.idx (ix2 k j))) = _
  congr 1; funext d; apply Fin.ext
  match d with
  | ⟨0, _⟩ => show win0_4.index t (0 : Fin 2) * 512 + 1 * (256 + 1 * k.val) = 256 + k.val; omega
  | ⟨1, _⟩ => show win0_4.index t (1 : Fin 2) * 256 + 1 * (0 + 1 * j.val) = j.val; omega

/-- Stem weight window 14, upper half: entry `(k, j)` of the loaded half is the array's entry `(k, j)`. -/
theorem ld_w14_top (c : Dev nD) (t : Fin cfg0.N) (k j : Fin 256) :
    View.ld (iblk m c 14 t) r0_1 (ix2 k j) = (V m c main_v26 : S512x256.Idx → F .bf16) (ix2 ⟨k.val, by omega⟩ j) := by
  have hf := res_idx t
  have e0 : win0_14.index t (0 : Fin 2) = 0 := hf.2.2.2.2.2.2.2.2.2.2.2.2.2.2.2.2.2.2.2.2.1
  have e1 : win0_14.index t (1 : Fin 2) = 0 := hf.2.2.2.2.2.2.2.2.2.2.2.2.2.2.2.2.2.2.2.2.2.1
  show (V m c main_v26 : S512x256.Idx → F .bf16) (((cfg0.win 14).blk t).view.emb (r0_1.idx (ix2 k j))) = _
  congr 1; funext d; apply Fin.ext
  match d with
  | ⟨0, _⟩ => show win0_14.index t (0 : Fin 2) * 512 + 1 * (0 + 1 * k.val) = k.val; omega
  | ⟨1, _⟩ => show win0_14.index t (1 : Fin 2) * 256 + 1 * (0 + 1 * j.val) = j.val; omega

/-- Stem weight window 14, lower half: entry `(k, j)` of the loaded half is the array's entry `(256 + k, j)`. -/
theorem ld_w14_bot (c : Dev nD) (t : Fin cfg0.N) (k j : Fin 256) :
    View.ld (iblk m c 14 t) r0_2 (ix2 k j) = (V m c main_v26 : S512x256.Idx → F .bf16) (ix2 ⟨256 + k.val, by omega⟩ j) := by
  have hf := res_idx t
  have e0 : win0_14.index t (0 : Fin 2) = 0 := hf.2.2.2.2.2.2.2.2.2.2.2.2.2.2.2.2.2.2.2.2.1
  have e1 : win0_14.index t (1 : Fin 2) = 0 := hf.2.2.2.2.2.2.2.2.2.2.2.2.2.2.2.2.2.2.2.2.2.1
  show (V m c main_v26 : S512x256.Idx → F .bf16) (((cfg0.win 14).blk t).view.emb (r0_2.idx (ix2 k j))) = _
  congr 1; funext d; apply Fin.ext
  match d with
  | ⟨0, _⟩ => show win0_14.index t (0 : Fin 2) * 512 + 1 * (256 + 1 * k.val) = 256 + k.val; omega
  | ⟨1, _⟩ => show win0_14.index t (1 : Fin 2) * 256 + 1 * (0 + 1 * j.val) = j.val; omega

/-- Block weight window 6: the loaded block is the array. -/
theorem ld_w6 (c : Dev nD) (t : Fin cfg0.N) (k j : Fin 256) :
    View.ld (iblk m c 6 t) r0_4 (ix2 k j) = (V m c main_v27 : S256x256.Idx → F .bf16) (ix2 k j) := by
  have hf := res_idx t
  have e0 : win0_6.index t (0 : Fin 2) = 0 := hf.2.2.2.2.1
  have e1 : win0_6.index t (1 : Fin 2) = 0 := hf.2.2.2.2.2.1
  show (V m c main_v27 : S256x256.Idx → F .bf16) (((cfg0.win 6).blk t).view.emb (r0_4.idx (ix2 k j))) = _
  congr 1; funext d; apply Fin.ext
  match d with
  | ⟨0, _⟩ => show win0_6.index t (0 : Fin 2) * 256 + 1 * (0 + 1 * k.val) = k.val; omega
  | ⟨1, _⟩ => show win0_6.index t (1 : Fin 2) * 256 + 1 * (0 + 1 * j.val) = j.val; omega

/-- Block weight window 8: the loaded block is the array. -/
theorem ld_w8 (c : Dev nD) (t : Fin cfg0.N) (k j : Fin 256) :
    View.ld (iblk m c 8 t) r0_4 (ix2 k j) = (V m c main_v28 : S256x256.Idx → F .bf16) (ix2 k j) := by
  have hf := res_idx t
  have e0 : win0_8.index t (0 : Fin 2) = 0 := hf.2.2.2.2.2.2.2.2.1
  have e1 : win0_8.index t (1 : Fin 2) = 0 := hf.2.2.2.2.2.2.2.2.2.1
  show (V m c main_v28 : S256x256.Idx → F .bf16) (((cfg0.win 8).blk t).view.emb (r0_4.idx (ix2 k j))) = _
  congr 1; funext d; apply Fin.ext
  match d with
  | ⟨0, _⟩ => show win0_8.index t (0 : Fin 2) * 256 + 1 * (0 + 1 * k.val) = k.val; omega
  | ⟨1, _⟩ => show win0_8.index t (1 : Fin 2) * 256 + 1 * (0 + 1 * j.val) = j.val; omega

/-- Block weight window 10: the loaded block is the array. -/
theorem ld_w10 (c : Dev nD) (t : Fin cfg0.N) (k j : Fin 256) :
    View.ld (iblk m c 10 t) r0_4 (ix2 k j) = (V m c main_v29 : S256x256.Idx → F .bf16) (ix2 k j) := by
  have hf := res_idx t
  have e0 : win0_10.index t (0 : Fin 2) = 0 := hf.2.2.2.2.2.2.2.2.2.2.2.2.1
  have e1 : win0_10.index t (1 : Fin 2) = 0 := hf.2.2.2.2.2.2.2.2.2.2.2.2.2.1
  show (V m c main_v29 : S256x256.Idx → F .bf16) (((cfg0.win 10).blk t).view.emb (r0_4.idx (ix2 k j))) = _
  congr 1; funext d; apply Fin.ext
  match d with
  | ⟨0, _⟩ => show win0_10.index t (0 : Fin 2) * 256 + 1 * (0 + 1 * k.val) = k.val; omega
  | ⟨1, _⟩ => show win0_10.index t (1 : Fin 2) * 256 + 1 * (0 + 1 * j.val) = j.val; omega

/-- Block weight window 12: the loaded block is the array. -/
theorem ld_w12 (c : Dev nD) (t : Fin cfg0.N) (k j : Fin 256) :
    View.ld (iblk m c 12 t) r0_4 (ix2 k j) = (V m c main_v30 : S256x256.Idx → F .bf16) (ix2 k j) := by
  have hf := res_idx t
  have e0 : win0_12.index t (0 : Fin 2) = 0 := hf.2.2.2.2.2.2.2.2.2.2.2.2.2.2.2.2.1
  have e1 : win0_12.index t (1 : Fin 2) = 0 := hf.2.2.2.2.2.2.2.2.2.2.2.2.2.2.2.2.2.1
  show (V m c main_v30 : S256x256.Idx → F .bf16) (((cfg0.win 12).blk t).view.emb (r0_4.idx (ix2 k j))) = _
  congr 1; funext d; apply Fin.ext
  match d with
  | ⟨0, _⟩ => show win0_12.index t (0 : Fin 2) * 256 + 1 * (0 + 1 * k.val) = k.val; omega
  | ⟨1, _⟩ => show win0_12.index t (1 : Fin 2) * 256 + 1 * (0 + 1 * j.val) = j.val; omega

/-- Bias window 5: the loaded row is the array's row. -/
theorem ld_w5 (c : Dev nD) (t : Fin cfg0.N) (j : Fin 256) :
    View.ld (iblk m c 5 t) r0_3 (ix2 (0 : Fin 1) j) = (V m c main_v19 : S1x256.Idx → F .f32) (ix2 (0 : Fin 1) j) := by
  have hf := res_idx t
  have e0 : win0_5.index t (0 : Fin 2) = 0 := hf.2.2.1
  have e1 : win0_5.index t (1 : Fin 2) = 0 := hf.2.2.2.1
  show (V m c main_v19 : S1x256.Idx → F .f32) (((cfg0.win 5).blk t).view.emb (r0_3.idx (ix2 (0 : Fin 1) j))) = _
  congr 1; funext d; apply Fin.ext
  match d with
  | ⟨0, _⟩ => show win0_5.index t (0 : Fin 2) * 1 + 1 * (0 + 1 * 0) = 0; omega
  | ⟨1, _⟩ => show win0_5.index t (1 : Fin 2) * 256 + 1 * (0 + 1 * j.val) = j.val; omega

/-- Bias window 7: the loaded row is the array's row. -/
theorem ld_w7 (c : Dev nD) (t : Fin cfg0.N) (j : Fin 256) :
    View.ld (iblk m c 7 t) r0_3 (ix2 (0 : Fin 1) j) = (V m c main_v21 : S1x256.Idx → F .f32) (ix2 (0 : Fin 1) j) := by
  have hf := res_idx t
  have e0 : win0_7.index t (0 : Fin 2) = 0 := hf.2.2.2.2.2.2.1
  have e1 : win0_7.index t (1 : Fin 2) = 0 := hf.2.2.2.2.2.2.2.1
  show (V m c main_v21 : S1x256.Idx → F .f32) (((cfg0.win 7).blk t).view.emb (r0_3.idx (ix2 (0 : Fin 1) j))) = _
  congr 1; funext d; apply Fin.ext
  match d with
  | ⟨0, _⟩ => show win0_7.index t (0 : Fin 2) * 1 + 1 * (0 + 1 * 0) = 0; omega
  | ⟨1, _⟩ => show win0_7.index t (1 : Fin 2) * 256 + 1 * (0 + 1 * j.val) = j.val; omega

/-- Bias window 9: the loaded row is the array's row. -/
theorem ld_w9 (c : Dev nD) (t : Fin cfg0.N) (j : Fin 256) :
    View.ld (iblk m c 9 t) r0_3 (ix2 (0 : Fin 1) j) = (V m c main_v22 : S1x256.Idx → F .f32) (ix2 (0 : Fin 1) j) := by
  have hf := res_idx t
  have e0 : win0_9.index t (0 : Fin 2) = 0 := hf.2.2.2.2.2.2.2.2.2.2.1
  have e1 : win0_9.index t (1 : Fin 2) = 0 := hf.2.2.2.2.2.2.2.2.2.2.2.1
  show (V m c main_v22 : S1x256.Idx → F .f32) (((cfg0.win 9).blk t).view.emb (r0_3.idx (ix2 (0 : Fin 1) j))) = _
  congr 1; funext d; apply Fin.ext
  match d with
  | ⟨0, _⟩ => show win0_9.index t (0 : Fin 2) * 1 + 1 * (0 + 1 * 0) = 0; omega
  | ⟨1, _⟩ => show win0_9.index t (1 : Fin 2) * 256 + 1 * (0 + 1 * j.val) = j.val; omega

/-- Bias window 11: the loaded row is the array's row. -/
theorem ld_w11 (c : Dev nD) (t : Fin cfg0.N) (j : Fin 256) :
    View.ld (iblk m c 11 t) r0_3 (ix2 (0 : Fin 1) j) = (V m c main_v23 : S1x256.Idx → F .f32) (ix2 (0 : Fin 1) j) := by
  have hf := res_idx t
  have e0 : win0_11.index t (0 : Fin 2) = 0 := hf.2.2.2.2.2.2.2.2.2.2.2.2.2.2.1
  have e1 : win0_11.index t (1 : Fin 2) = 0 := hf.2.2.2.2.2.2.2.2.2.2.2.2.2.2.2.1
  show (V m c main_v23 : S1x256.Idx → F .f32) (((cfg0.win 11).blk t).view.emb (r0_3.idx (ix2 (0 : Fin 1) j))) = _
  congr 1; funext d; apply Fin.ext
  match d with
  | ⟨0, _⟩ => show win0_11.index t (0 : Fin 2) * 1 + 1 * (0 + 1 * 0) = 0; omega
  | ⟨1, _⟩ => show win0_11.index t (1 : Fin 2) * 256 + 1 * (0 + 1 * j.val) = j.val; omega

/-- Bias window 13: the loaded row is the array's row. -/
theorem ld_w13 (c : Dev nD) (t : Fin cfg0.N) (j : Fin 256) :
    View.ld (iblk m c 13 t) r0_3 (ix2 (0 : Fin 1) j) = (V m c main_v24 : S1x256.Idx → F .f32) (ix2 (0 : Fin 1) j) := by
  have hf := res_idx t
  have e0 : win0_13.index t (0 : Fin 2) = 0 := hf.2.2.2.2.2.2.2.2.2.2.2.2.2.2.2.2.2.2.1
  have e1 : win0_13.index t (1 : Fin 2) = 0 := hf.2.2.2.2.2.2.2.2.2.2.2.2.2.2.2.2.2.2.2.1
  show (V m c main_v24 : S1x256.Idx → F .f32) (((cfg0.win 13).blk t).view.emb (r0_3.idx (ix2 (0 : Fin 1) j))) = _
  congr 1; funext d; apply Fin.ext
  match d with
  | ⟨0, _⟩ => show win0_13.index t (0 : Fin 2) * 1 + 1 * (0 + 1 * 0) = 0; omega
  | ⟨1, _⟩ => show win0_13.index t (1 : Fin 2) * 256 + 1 * (0 + 1 * j.val) = j.val; omega

/-- Bias window 15: the loaded row is the array's row. -/
theorem ld_w15 (c : Dev nD) (t : Fin cfg0.N) (j : Fin 256) :
    View.ld (iblk m c 15 t) r0_3 (ix2 (0 : Fin 1) j) = (V m c main_v20 : S1x256.Idx → F .f32) (ix2 (0 : Fin 1) j) := by
  have hf := res_idx t
  have e0 : win0_15.index t (0 : Fin 2) = 0 := hf.2.2.2.2.2.2.2.2.2.2.2.2.2.2.2.2.2.2.2.2.2.2.1
  have e1 : win0_15.index t (1 : Fin 2) = 0 := hf.2.2.2.2.2.2.2.2.2.2.2.2.2.2.2.2.2.2.2.2.2.2.2
  show (V m c main_v20 : S1x256.Idx → F .f32) (((cfg0.win 15).blk t).view.emb (r0_3.idx (ix2 (0 : Fin 1) j))) = _
  congr 1; funext d; apply Fin.ext
  match d with
  | ⟨0, _⟩ => show win0_15.index t (0 : Fin 2) * 1 + 1 * (0 + 1 * 0) = 0; omega
  | ⟨1, _⟩ => show win0_15.index t (1 : Fin 2) * 256 + 1 * (0 + 1 * j.val) = j.val; omega

end Cert.BlockRead

end
-- ==== Proof.HostStageA.lean ====
import proofs.«413987_j66022237274250_3_alg».proof.Proof.Gen.KernelIdeal.Frame
import Idealize.ShloMosaic.Lib.StableHlo.Run
import Idealize.ShloMosaic.Lib.ValueIdx

/-! What the kernel's region finds in the arrays of its three aggregate windows.

    Before the region the program gathers one feature row per edge (at the row word of `IndexWord.kWord`), scatter-adds
    the gathered rows into a zero [300000, 128] aggregate at the (wrapped) target rows, and cuts the aggregate into its
    three [100000, 128] thirds, one per window. -/

noncomputable section

namespace Cert.HostStageA

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ)

set_option maxHeartbeats 4000000 in
/-- Window array `main_v16` is the third of the aggregate that starts at row 0. -/
theorem V_v16 (c : Dev nD) : (V m c main_v16 : S100000x128.Idx → F .f32)
    = extractStridedSlice S100000x128 ![0, 0] (V m c main_v15 : S300000x128.Idx → F .f32) slices_S300000x128_S100000x128_0_0 := by
  dsimp only [V]
  simp only [hostOps0, hostOps0_1, hostOps0_2, List.flatten_cons, List.flatten_nil, List.append_nil, List.cons_append, List.nil_append]
  after_results_simp <;> rfl

set_option maxHeartbeats 4000000 in
/-- Window array `main_v17` is the third of the aggregate that starts at row 100000. -/
theorem V_v17 (c : Dev nD) : (V m c main_v17 : S100000x128.Idx → F .f32)
    = extractStridedSlice S100000x128 ![100000, 0] (V m c main_v15 : S300000x128.Idx → F .f32) slices_S300000x128_S100000x128_100000_0 := by
  dsimp only [V]
  simp only [hostOps0, hostOps0_1, hostOps0_2, List.flatten_cons, List.flatten_nil, List.append_nil, List.cons_append, List.nil_append]
  after_results_simp <;> rfl

set_option maxHeartbeats 4000000 in
/-- Window array `main_v18` is the third of the aggregate that starts at row 200000. -/
theorem V_v18 (c : Dev nD) : (V m c main_v18 : S100000x128.Idx → F .f32)
    = extractStridedSlice S100000x128 ![200000, 0] (V m c main_v15 : S300000x128.Idx → F .f32) slices_S300000x128_S100000x128_200000_0 := by
  dsimp only [V]
  simp only [hostOps0, hostOps0_1, hostOps0_2, List.flatten_cons, List.flatten_nil, List.append_nil, List.cons_append, List.nil_append]
  after_results_simp <;> rfl

set_option maxHeartbeats 4000000 in
/-- The aggregate is the scatter-add, into the zero array, of the gathered rows at the target rows. -/
theorem V_v15 (c : Dev nD) : (V m c main_v15 : S300000x128.Idx → F .f32)
    = Host.scatterAdd scatter_S300000x128_S640000x1_S640000x128_1_0_0_1 (V m c main_v8 : S300000x128.Idx → F .f32)
        (V m c main_v14 : IVec S640000x1 32) (V m c main_v7 : S640000x128.Idx → F .f32) := by
  dsimp only [V]
  simp only [hostOps0, hostOps0_1, hostOps0_2, List.flatten_cons, List.flatten_nil, List.append_nil, List.cons_append, List.nil_append]
  after_results_simp <;> rfl

set_option maxHeartbeats 4000000 in
/-- The gathered rows: the node features at the kernel's row words. -/
theorem V_v7 (c : Dev nD) : (V m c main_v7 : S640000x128.Idx → F .f32)
    = Host.gather gather_S100000x128_S640000x1_S640000x128_1_0_n_n_0_1_1128 (m ((c : Thread nD τ).loc main_arg0))
        (V m c main_v6 : IVec S640000x1 32) := by
  dsimp only [V]
  simp only [hostOps0, hostOps0_1, hostOps0_2, List.flatten_cons, List.flatten_nil, List.append_nil, List.cons_append, List.nil_append]
  after_results_simp <;> rfl

set_option maxHeartbeats 4000000 in
/-- The array the scatter-add starts from is zero everywhere. -/
theorem V_v8 (c : Dev nD) : (V m c main_v8 : S300000x128.Idx → F .f32)
    = broadcastInDim S300000x128 ![] bcast_S_S300000x128 (constant (F := F) S_ .f32 0x00000000#32) := by
  dsimp only [V]
  simp only [hostOps0, hostOps0_1, hostOps0_2, List.flatten_cons, List.flatten_nil, List.append_nil, List.cons_append, List.nil_append]
  after_results_simp <;> rfl

set_option maxHeartbeats 4000000 in
/-- The target rows: a negative target wraps by 300000. -/
theorem V_v14 (c : Dev nD) : (V m c main_v14 : IVec S640000x1 32)
    = broadcastInDim S640000x1 ![0] bcast_S640000_S640000x1_0
        (select (cmpi .slt (m ((c : Thread nD τ).loc main_arg1) : IVec S640000 32) (broadcastInDim S640000 ![] bcast_S_S640000 (constantI S_ 32 0#32)))
          (addi (m ((c : Thread nD τ).loc main_arg1) : IVec S640000 32) (broadcastInDim S640000 ![] bcast_S_S640000 (constantI S_ 32 300000#32)))
          (m ((c : Thread nD τ).loc main_arg1) : IVec S640000 32)) := by
  dsimp only [V]
  simp only [hostOps0, hostOps0_1, hostOps0_2, List.flatten_cons, List.flatten_nil, List.append_nil, List.cons_append, List.nil_append]
  after_results_simp <;> rfl

end Cert.HostStageA

end
-- ==== Proof.HostStageB.lean ====
import proofs.«413987_j66022237274250_3_alg».proof.Proof.Gen.KernelIdeal.Frame
import Idealize.ShloMosaic.Lib.StableHlo.Run
import Idealize.ShloMosaic.Lib.ValueIdx

/-! What the kernel's region finds in the arrays of its weight and bias windows.

    Before the region the program reshapes each bias [256] to a row [1, 256] and narrows each weight to bf16; no other
    operation writes those arrays. So each bias window's array is the bias as one row, and each weight window's array
    is the weight with every entry narrowed (which, over the extended reals, changes nothing). -/

noncomputable section

namespace Cert.HostStageB

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ)

/-- The bias array `main_v19` is argument 4 as one row. -/
theorem V_v19 (c : Dev nD) : (V m c main_v19 : S1x256.Idx → F .f32)
    = shapeCast S1x256 (m ((c : Thread nD τ).loc main_arg4)) shapeCasts_S256_S1x256 := by
  dsimp only [V]
  simp only [hostOps0, hostOps0_1, hostOps0_2, List.flatten_cons, List.flatten_nil, List.append_nil, List.cons_append, List.nil_append]
  after_results_simp <;> rfl

/-- The bias array `main_v20` is argument 14 as one row. -/
theorem V_v20 (c : Dev nD) : (V m c main_v20 : S1x256.Idx → F .f32)
    = shapeCast S1x256 (m ((c : Thread nD τ).loc main_arg14)) shapeCasts_S256_S1x256 := by
  dsimp only [V]
  simp only [hostOps0, hostOps0_1, hostOps0_2, List.flatten_cons, List.flatten_nil, List.append_nil, List.cons_append, List.nil_append]
  after_results_simp <;> rfl

/-- The bias array `main_v21` is argument 6 as one row. -/
theorem V_v21 (c : Dev nD) : (V m c main_v21 : S1x256.Idx → F .f32)
    = shapeCast S1x256 (m ((c : Thread nD τ).loc main_arg6)) shapeCasts_S256_S1x256 := by
  dsimp only [V]
  simp only [hostOps0, hostOps0_1, hostOps0_2, List.flatten_cons, List.flatten_nil, List.append_nil, List.cons_append, List.nil_append]
  after_results_simp <;> rfl

/-- The bias array `main_v22` is argument 8 as one row. -/
theorem V_v22 (c : Dev nD) : (V m c main_v22 : S1x256.Idx → F .f32)
    = shapeCast S1x256 (m ((c : Thread nD τ).loc main_arg8)) shapeCasts_S256_S1x256 := by
  dsimp only [V]
  simp only [hostOps0, hostOps0_1, hostOps0_2, List.flatten_cons, List.flatten_nil, List.append_nil, List.cons_append, List.nil_append]
  after_results_simp <;> rfl

/-- The bias array `main_v23` is argument 10 as one row. -/
theorem V_v23 (c : Dev nD) : (V m c main_v23 : S1x256.Idx → F .f32)
    = shapeCast S1x256 (m ((c : Thread nD τ).loc main_arg10)) shapeCasts_S256_S1x256 := by
  dsimp only [V]
  simp only [hostOps0, hostOps0_1, hostOps0_2, List.flatten_cons, List.flatten_nil, List.append_nil, List.cons_append, List.nil_append]
  after_results_simp <;> rfl

/-- The bias array `main_v24` is argument 12 as one row. -/
theorem V_v24 (c : Dev nD) : (V m c main_v24 : S1x256.Idx → F .f32)
    = shapeCast S1x256 (m ((c : Thread nD τ).loc main_arg12)) shapeCasts_S256_S1x256 := by
  dsimp only [V]
  simp only [hostOps0, hostOps0_1, hostOps0_2, List.flatten_cons, List.flatten_nil, List.append_nil, List.cons_append, List.nil_append]
  after_results_simp <;> rfl

/-- The weight array `main_v25` is argument 3, entry by entry narrowed. -/
theorem V_v25 (c : Dev nD) : (V m c main_v25 : S512x256.Idx → F .bf16)
    = truncf .bf16 (m ((c : Thread nD τ).loc main_arg3)) bitsLt_bf16_f32 := by
  dsimp only [V]
  simp only [hostOps0, hostOps0_1, hostOps0_2, List.flatten_cons, List.flatten_nil, List.append_nil, List.cons_append, List.nil_append]
  after_results_simp <;> rfl

/-- The weight array `main_v26` is argument 13, entry by entry narrowed. -/
theorem V_v26 (c : Dev nD) : (V m c main_v26 : S512x256.Idx → F .bf16)
    = truncf .bf16 (m ((c : Thread nD τ).loc main_arg13)) bitsLt_bf16_f32 := by
  dsimp only [V]
  simp only [hostOps0, hostOps0_1, hostOps0_2, List.flatten_cons, List.flatten_nil, List.append_nil, List.cons_append, List.nil_append]
  after_results_simp <;> rfl

/-- The weight array `main_v27` is argument 5, entry by entry narrowed. -/
theorem V_v27 (c : Dev nD) : (V m c main_v27 : S256x256.Idx → F .bf16)
    = truncf .bf16 (m ((c : Thread nD τ).loc main_arg5)) bitsLt_bf16_f32 := by
  dsimp only [V]
  simp only [hostOps0, hostOps0_1, hostOps0_2, List.flatten_cons, List.flatten_nil, List.append_nil, List.cons_append, List.nil_append]
  after_results_simp <;> rfl

/-- The weight array `main_v28` is argument 7, entry by entry narrowed. -/
theorem V_v28 (c : Dev nD) : (V m c main_v28 : S256x256.Idx → F .bf16)
    = truncf .bf16 (m ((c : Thread nD τ).loc main_arg7)) bitsLt_bf16_f32 := by
  dsimp only [V]
  simp only [hostOps0, hostOps0_1, hostOps0_2, List.flatten_cons, List.flatten_nil, List.append_nil, List.cons_append, List.nil_append]
  after_results_simp <;> rfl

/-- The weight array `main_v29` is argument 9, entry by entry narrowed. -/
theorem V_v29 (c : Dev nD) : (V m c main_v29 : S256x256.Idx → F .bf16)
    = truncf .bf16 (m ((c : Thread nD τ).loc main_arg9)) bitsLt_bf16_f32 := by
  dsimp only [V]
  simp only [hostOps0, hostOps0_1, hostOps0_2, List.flatten_cons, List.flatten_nil, List.append_nil, List.cons_append, List.nil_append]
  after_results_simp <;> rfl

/-- The weight array `main_v30` is argument 11, entry by entry narrowed. -/
theorem V_v30 (c : Dev nD) : (V m c main_v30 : S256x256.Idx → F .bf16)
    = truncf .bf16 (m ((c : Thread nD τ).loc main_arg11)) bitsLt_bf16_f32 := by
  dsimp only [V]
  simp only [hostOps0, hostOps0_1, hostOps0_2, List.flatten_cons, List.flatten_nil, List.append_nil, List.cons_append, List.nil_append]
  after_results_simp <;> rfl

end Cert.HostStageB

end
-- ==== Proof.KerMlp.lean ====
import proofs.«413987_j66022237274250_3_alg».proof.Proof.Gen.KernelIdeal.Value
import proofs.«413987_j66022237274250_3_alg».proof.Proof.Spec
import Idealize.ShloMosaic.PureOps.Ideal
import Idealize.ShloMosaic.PureOps.Ideal.Laws
import Idealize.ShloMosaic.Lib.ValueIdx
import Idealize.ShloMosaic.Lib.Pipeline.Value

/-! One block of 2000 rows through the layer.

    The body lays the four loaded 2000 x 128 blocks' rows side by side in two pairs, multiplies each pair by one half of
    a 512 x 256 stem weight and adds the two products: a 512-term sum cut into its first and last 256 terms. With the
    bias row added on every row this is the stem of the row of four pieces; `z ↦ z · σ(z)` of it is the hidden row,
    two residual blocks follow, and the skip stem of the same row is added at the end. Rounding to the narrow format is
    the identity on the extended reals, so every matrix product below is a plain finite sum. -/

noncomputable section

namespace Cert.KerMlp

open Idealize.ShloMosaic Idealize.ShloMosaic.ValueIdx Cert.KernelIdeal Cert.KernelIdeal.Gen Cert.KernelIdeal.Value

/-! ## One matrix product read at an entry -/

/-- The left operand's row coordinate is the output's row. -/
theorem lhs_axis0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The left operand's column coordinate is the contraction index. -/
theorem lhs_axis1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- The right operand's row coordinate is the contraction index. -/
theorem rhs_axis0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- The right operand's column coordinate is the output's column. -/
theorem rhs_axis1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A (2000 x 256) by (256 x 256) product accumulated into zero: entry (p, q) is `∑ₖ l(p,k) · r(k,q)`. -/
theorem matmul_at (l : FVec Ideal S2000x256 .bf16) (r : FVec Ideal S256x256 .bf16) (p : Fin 2000) (q : Fin 256) :
    matmul (F := Ideal) dot_S2000x256_S256x256_S2000x256_1_0_0_1_n_n none l r (constant (F := Ideal) S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The layout operations read at an entry -/

/-- A 1 x 256 row laid over all 2000 rows: entry (p, q) is the row's entry q. -/
theorem bias_at (b : FVec Ideal S1x256 .f32) (p : Fin 2000) (q : Fin 256) :
    broadcastTo S2000x256 (shapeCast S1x256 b shapeCasts_S1x256_S1x256 : FVec Ideal S1x256 .f32) broadcasts_S1x256_S2000x256 (ix2 p q)
      = b (ix2 (0 : Fin 1) q) := by
  rw [shapeCast_self]
  exact broadcastTo_apply b broadcasts_S1x256_S2000x256 (ix2 p q) (ix2 (0 : Fin 1) q) (fun a => match a with
    | ⟨0, _⟩ => by show 0 = (if (1 : Nat) = 1 then 0 else p.val); rw [if_pos rfl]
    | ⟨1, _⟩ => by show q.val = (if (256 : Nat) = 1 then 0 else q.val); rw [if_neg (by decide)])

/-- Two 2000 x 128 blocks joined along the columns: row p of the join is the two blocks' rows p laid end to end. -/
theorem join_at (x y : FVec Ideal S2000x128 .bf16) (p : Fin 2000) (k : Fin 256) :
    concatenate S2000x256 1 [⟨S2000x128, x⟩, ⟨S2000x128, y⟩] concatenates_S2000x128_S2000x128_S2000x256_d1 (ix2 p k)
      = Cert.Spec.row2 (fun a => x (ix2 p a)) (fun a => y (ix2 p a)) k := by
  unfold Cert.Spec.row2
  by_cases h : k.val < 128
  · rw [dif_pos h]
    exact concatenate_pair_apply_left (t := S2000x256) (s₁ := S2000x128) (s₂ := S2000x128) 1 x y
      concatenates_S2000x128_S2000x128_S2000x256_d1 (ix2 p k) rfl (ix2 p ⟨k.val, h⟩)
      (fun b => match b with | ⟨0, _⟩ => rfl | ⟨1, _⟩ => rfl)
  · rw [dif_neg h]
    exact concatenate_pair_apply_right (t := S2000x256) (s₁ := S2000x128) (s₂ := S2000x128) 1 x y
      concatenates_S2000x128_S2000x128_S2000x256_d1 (ix2 p k) rfl rfl (ix2 p ⟨k.val - 128, by omega⟩)
      (fun b hb => match b, hb with | ⟨0, _⟩, _ => rfl | ⟨1, _⟩, hb => absurd rfl hb)
      (by show (k.val - 128) + 128 = k.val; omega)

/-- The first pair of blocks, joined: at the ideal values the narrowing is the identity. -/
theorem pay2_at (v0 v2 : FVec Ideal S2000x128 .f32) (p : Fin 2000) (k : Fin 256) :
    k0_pay2 (F := Ideal) v0 v2 (ix2 p k) = Cert.Spec.row2 (fun a => v0 (ix2 p a)) (fun a => v2 (ix2 p a)) k := by
  unfold k0_pay2
  refine (join_at _ _ p k).trans ?_
  rw [shapeCast_self]
  rfl

/-- The second pair of blocks, joined. -/
theorem pay3_at (v5 v8 : FVec Ideal S2000x128 .f32) (p : Fin 2000) (k : Fin 256) :
    k0_pay3 (F := Ideal) v5 v8 (ix2 p k) = Cert.Spec.row2 (fun a => v5 (ix2 p a)) (fun a => v8 (ix2 p a)) k := by
  unfold k0_pay3
  refine (join_at _ _ p k).trans ?_
  rw [shapeCast_self, shapeCast_self]
  rfl

/-! ## A stem: two 256-deep products for one 512-deep one -/

/-- The two products the body adds for a stem, at entry (p, q): the first joined pair against the upper half of the
    weight, the second against its lower half. -/
def twoProducts (P0 P1 P2 P3 : FVec Ideal S2000x128 .f32) (Wt Wb : FVec Ideal S256x256 .bf16) (p : Fin 2000) (q : Fin 256) : EReal :=
  matmul (F := Ideal) dot_S2000x256_S256x256_S2000x256_1_0_0_1_n_n none (k0_pay2 (F := Ideal) P0 P1) (shapeCast S256x256 Wt shapeCasts_S256x256_S256x256 : FVec Ideal S256x256 .bf16)
      (constant (F := Ideal) S2000x256 .f32 0x00000000#32) (ix2 p q)
    + matmul (F := Ideal) dot_S2000x256_S256x256_S2000x256_1_0_0_1_n_n none (k0_pay3 (F := Ideal) P2 P3) (shapeCast S256x256 Wb shapeCasts_S256x256_S256x256 : FVec Ideal S256x256 .bf16)
      (constant (F := Ideal) S2000x256 .f32 0x00000000#32) (ix2 p q)

/-- The skip's two products are exactly these. -/
theorem pay5_at (P0 P1 P2 P3 : FVec Ideal S2000x128 .f32) (Wt Wb : FVec Ideal S256x256 .bf16) (p : Fin 2000) (q : Fin 256) :
    k0_pay5 (F := Ideal) P0 P1 P2 P3 Wt Wb (ix2 p q) = twoProducts P0 P1 P2 P3 Wt Wb p q := rfl

/-- The hidden block is `z · σ(z)` of the two products plus the bias row. -/
theorem pay4_raw (P0 P1 P2 P3 : FVec Ideal S2000x128 .f32) (Wt Wb : FVec Ideal S256x256 .bf16) (b : FVec Ideal S1x256 .f32)
    (p : Fin 2000) (q : Fin 256) :
    k0_pay4 (F := Ideal) P0 P1 P2 P3 Wt Wb b (ix2 p q)
      = Cert.Spec.silu (twoProducts P0 P1 P2 P3 Wt Wb p q
          + broadcastTo S2000x256 (shapeCast S1x256 b shapeCasts_S1x256_S1x256 : FVec Ideal S1x256 .f32) broadcasts_S1x256_S2000x256 (ix2 p q)) := rfl

/-- With the two loaded weight blocks the upper and lower halves of `W`, the two products plus the bias are the stem of
    the row of four pieces: one 512-term sum cut after its 256th term. -/
theorem stem_of_twoProducts (P0 P1 P2 P3 : FVec Ideal S2000x128 .f32) (Wt Wb : FVec Ideal S256x256 .bf16)
    (W : Cert.Spec.SW.Idx → EReal) (bias : Cert.Spec.SB.Idx → EReal)
    (ht : ∀ (k j : Fin 256), Wt (ix2 k j) = W (ix2 ⟨k.val, by omega⟩ j))
    (hb : ∀ (k j : Fin 256), Wb (ix2 k j) = W (ix2 ⟨256 + k.val, by omega⟩ j))
    (p : Fin 2000) (q : Fin 256) :
    twoProducts P0 P1 P2 P3 Wt Wb p q + bias (ix1 q)
      = Cert.Spec.stem (Cert.Spec.row4 (fun a => P0 (ix2 p a)) (fun a => P1 (ix2 p a)) (fun a => P2 (ix2 p a)) (fun a => P3 (ix2 p a)))
          W bias q := by
  rw [Cert.Spec.stem_row4]
  unfold twoProducts
  rw [matmul_at, matmul_at]
  congr 2
  · refine Finset.sum_congr rfl fun k _ => ?_
    rw [pay2_at, shapeCast_self, ht]
  · refine Finset.sum_congr rfl fun k _ => ?_
    rw [pay3_at, shapeCast_self, hb]

/-- The hidden block at entry (p, q). -/
theorem pay4_at (P0 P1 P2 P3 : FVec Ideal S2000x128 .f32) (Wt Wb : FVec Ideal S256x256 .bf16) (b : FVec Ideal S1x256 .f32)
    (W : Cert.Spec.SW.Idx → EReal) (bias : Cert.Spec.SB.Idx → EReal)
    (ht : ∀ (k j : Fin 256), Wt (ix2 k j) = W (ix2 ⟨k.val, by omega⟩ j))
    (hb : ∀ (k j : Fin 256), Wb (ix2 k j) = W (ix2 ⟨256 + k.val, by omega⟩ j))
    (hbias : ∀ j : Fin 256, b (ix2 (0 : Fin 1) j) = bias (ix1 j))
    (p : Fin 2000) (q : Fin 256) :
    k0_pay4 (F := Ideal) P0 P1 P2 P3 Wt Wb b (ix2 p q)
      = Cert.Spec.silu (Cert.Spec.stem (Cert.Spec.row4 (fun a => P0 (ix2 p a)) (fun a => P1 (ix2 p a)) (fun a => P2 (ix2 p a)) (fun a => P3 (ix2 p a)))
          W bias q) := by
  rw [pay4_raw, bias_at, hbias, stem_of_twoProducts P0 P1 P2 P3 Wt Wb W bias ht hb p q]

/-! ## The residual blocks -/

/-- A dense layer as the body forms it: the 256-deep product into zero plus the bias row. -/
def denseV (h : FVec Ideal S2000x256 .f32) (W : FVec Ideal S256x256 .bf16) (b : FVec Ideal S1x256 .f32) : FVec Ideal S2000x256 .f32 :=
  addf (matmul (F := Ideal) dot_S2000x256_S256x256_S2000x256_1_0_0_1_n_n none (truncf .bf16 h bitsLt_bf16_f32) (shapeCast S256x256 W shapeCasts_S256x256_S256x256 : FVec Ideal S256x256 .bf16)
      (constant (F := Ideal) S2000x256 .f32 0x00000000#32))
    (broadcastTo S2000x256 (shapeCast S1x256 b shapeCasts_S1x256_S1x256 : FVec Ideal S1x256 .f32) broadcasts_S1x256_S2000x256)

/-- `z · σ(z)`, entry by entry. -/
def siluV (z : FVec Ideal S2000x256 .f32) : FVec Ideal S2000x256 .f32 := mulf z (logistic z)

/-- One residual block as the body forms it. -/
def blockV (h : FVec Ideal S2000x256 .f32) (W1 : FVec Ideal S256x256 .bf16) (b1 : FVec Ideal S1x256 .f32)
    (W2 : FVec Ideal S256x256 .bf16) (b2 : FVec Ideal S1x256 .f32) : FVec Ideal S2000x256 .f32 :=
  addf (denseV (siluV (denseV h W1 b1)) W2 b2) h

/-- The body's last value is two residual blocks over the hidden block. -/
theorem pay8_eq (h0 : FVec Ideal S2000x256 .f32) (P7 : FVec Ideal S256x256 .bf16) (P8 : FVec Ideal S1x256 .f32)
    (P9 : FVec Ideal S256x256 .bf16) (P10 : FVec Ideal S1x256 .f32) (P11 : FVec Ideal S256x256 .bf16) (P12 : FVec Ideal S1x256 .f32)
    (P13 : FVec Ideal S256x256 .bf16) (P14 : FVec Ideal S1x256 .f32) :
    k0_pay8 (F := Ideal) h0 P7 P8 P9 P10 P11 P12 P13 P14 = blockV (blockV h0 P7 P8 P9 P10) P11 P12 P13 P14 := rfl

/-- A dense layer at entry (p, q): row p of the input through the weight, plus the bias. -/
theorem denseV_at (h : FVec Ideal S2000x256 .f32) (W : FVec Ideal S256x256 .bf16) (b : FVec Ideal S1x256 .f32)
    (Wm : Cert.Spec.SM.Idx → EReal) (bm : Cert.Spec.SB.Idx → EReal)
    (hW : ∀ k j : Fin 256, W (ix2 k j) = Wm (ix2 k j)) (hb : ∀ j : Fin 256, b (ix2 (0 : Fin 1) j) = bm (ix1 j))
    (p : Fin 2000) (q : Fin 256) :
    denseV h W b (ix2 p q) = Cert.Spec.dense (fun k => h (ix2 p k)) Wm bm q := by
  show matmul (F := Ideal) dot_S2000x256_S256x256_S2000x256_1_0_0_1_n_n none (truncf .bf16 h bitsLt_bf16_f32) (shapeCast S256x256 W shapeCasts_S256x256_S256x256 : FVec Ideal S256x256 .bf16)
        (constant (F := Ideal) S2000x256 .f32 0x00000000#32) (ix2 p q)
      + broadcastTo S2000x256 (shapeCast S1x256 b shapeCasts_S1x256_S1x256 : FVec Ideal S1x256 .f32) broadcasts_S1x256_S2000x256 (ix2 p q) = _
  rw [matmul_at, bias_at, hb]
  unfold Cert.Spec.dense
  congr 1
  refine Finset.sum_congr rfl fun k _ => ?_
  rw [shapeCast_self, hW]
  rfl

/-- A residual block at entry (p, q). -/
theorem blockV_at (h : FVec Ideal S2000x256 .f32) (W1 : FVec Ideal S256x256 .bf16) (b1 : FVec Ideal S1x256 .f32)
    (W2 : FVec Ideal S256x256 .bf16) (b2 : FVec Ideal S1x256 .f32)
    (W1m : Cert.Spec.SM.Idx → EReal) (b1m : Cert.Spec.SB.Idx → EReal) (W2m : Cert.Spec.SM.Idx → EReal) (b2m : Cert.Spec.SB.Idx → EReal)
    (hW1 : ∀ k j : Fin 256, W1 (ix2 k j) = W1m (ix2 k j)) (hb1 : ∀ j : Fin 256, b1 (ix2 (0 : Fin 1) j) = b1m (ix1 j))
    (hW2 : ∀ k j : Fin 256, W2 (ix2 k j) = W2m (ix2 k j)) (hb2 : ∀ j : Fin 256, b2 (ix2 (0 : Fin 1) j) = b2m (ix1 j))
    (p : Fin 2000) (q : Fin 256) :
    blockV h W1 b1 W2 b2 (ix2 p q) = Cert.Spec.block (fun k => h (ix2 p k)) W1m b1m W2m b2m q := by
  show denseV (siluV (denseV h W1 b1)) W2 b2 (ix2 p q) + h (ix2 p q) = _
  rw [denseV_at (siluV (denseV h W1 b1)) W2 b2 W2m b2m hW2 hb2 p q]
  unfold Cert.Spec.block
  congr 2
  funext k
  show denseV h W1 b1 (ix2 p k) * Ideal.logistic (denseV h W1 b1 (ix2 p k)) = _
  rw [denseV_at h W1 b1 W1m b1m hW1 hb1 p k]
  rfl

/-- The two residual blocks at entry (p, q), over row p of the hidden block. -/
theorem pay8_at (h0 : FVec Ideal S2000x256 .f32) (P7 : FVec Ideal S256x256 .bf16) (P8 : FVec Ideal S1x256 .f32)
    (P9 : FVec Ideal S256x256 .bf16) (P10 : FVec Ideal S1x256 .f32) (P11 : FVec Ideal S256x256 .bf16) (P12 : FVec Ideal S1x256 .f32)
    (P13 : FVec Ideal S256x256 .bf16) (P14 : FVec Ideal S1x256 .f32)
    (W10 W20 W11 W21 : Cert.Spec.SM.Idx → EReal) (b10 b20 b11 b21 : Cert.Spec.SB.Idx → EReal)
    (h7 : ∀ k j : Fin 256, P7 (ix2 k j) = W10 (ix2 k j)) (h8 : ∀ j : Fin 256, P8 (ix2 (0 : Fin 1) j) = b10 (ix1 j))
    (h9 : ∀ k j : Fin 256, P9 (ix2 k j) = W20 (ix2 k j)) (h10 : ∀ j : Fin 256, P10 (ix2 (0 : Fin 1) j) = b20 (ix1 j))
    (h11 : ∀ k j : Fin 256, P11 (ix2 k j) = W11 (ix2 k j)) (h12 : ∀ j : Fin 256, P12 (ix2 (0 : Fin 1) j) = b11 (ix1 j))
    (h13 : ∀ k j : Fin 256, P13 (ix2 k j) = W21 (ix2 k j)) (h14 : ∀ j : Fin 256, P14 (ix2 (0 : Fin 1) j) = b21 (ix1 j))
    (p : Fin 2000) (q : Fin 256) :
    k0_pay8 (F := Ideal) h0 P7 P8 P9 P10 P11 P12 P13 P14 (ix2 p q)
      = Cert.Spec.block (Cert.Spec.block (fun k => h0 (ix2 p k)) W10 b10 W20 b20) W11 b11 W21 b21 q := by
  rw [pay8_eq, blockV_at (blockV h0 P7 P8 P9 P10) P11 P12 P13 P14 W11 b11 W21 b21 h11 h12 h13 h14 p q]
  congr 1
  funext k
  exact blockV_at h0 P7 P8 P9 P10 W10 b10 W20 b20 h7 h8 h9 h10 p k

/-! ## The block the body leaves -/

theorem block_out
    (P0 P1 P2 P3 : Vec Ideal S2000x128 .f32) (P4 P5 : Vec Ideal S256x256 .bf16) (P6 : Vec Ideal S1x256 .f32)
    (P7 : Vec Ideal S256x256 .bf16) (P8 : Vec Ideal S1x256 .f32) (P9 : Vec Ideal S256x256 .bf16) (P10 : Vec Ideal S1x256 .f32)
    (P11 : Vec Ideal S256x256 .bf16) (P12 : Vec Ideal S1x256 .f32) (P13 : Vec Ideal S256x256 .bf16) (P14 : Vec Ideal S1x256 .f32)
    (P15 P16 : Vec Ideal S256x256 .bf16) (P17 : Vec Ideal S1x256 .f32)
    (Win Wskip : Cert.Spec.SW.Idx → EReal) (bin bskip b10 b20 b11 b21 : Cert.Spec.SB.Idx → EReal) (W10 W20 W11 W21 : Cert.Spec.SM.Idx → EReal)
    (h4 : ∀ (k j : Fin 256), P4 (ix2 k j) = Win (ix2 ⟨k.val, by omega⟩ j)) (h5 : ∀ (k j : Fin 256), P5 (ix2 k j) = Win (ix2 ⟨256 + k.val, by omega⟩ j))
    (h15 : ∀ (k j : Fin 256), P15 (ix2 k j) = Wskip (ix2 ⟨k.val, by omega⟩ j)) (h16 : ∀ (k j : Fin 256), P16 (ix2 k j) = Wskip (ix2 ⟨256 + k.val, by omega⟩ j))
    (h6 : ∀ j : Fin 256, P6 (ix2 (0 : Fin 1) j) = bin (ix1 j)) (h17 : ∀ j : Fin 256, P17 (ix2 (0 : Fin 1) j) = bskip (ix1 j))
    (h7 : ∀ k j : Fin 256, P7 (ix2 k j) = W10 (ix2 k j)) (h8 : ∀ j : Fin 256, P8 (ix2 (0 : Fin 1) j) = b10 (ix1 j))
    (h9 : ∀ k j : Fin 256, P9 (ix2 k j) = W20 (ix2 k j)) (h10 : ∀ j : Fin 256, P10 (ix2 (0 : Fin 1) j) = b20 (ix1 j))
    (h11 : ∀ k j : Fin 256, P11 (ix2 k j) = W11 (ix2 k j)) (h12 : ∀ j : Fin 256, P12 (ix2 (0 : Fin 1) j) = b11 (ix1 j))
    (h13 : ∀ k j : Fin 256, P13 (ix2 k j) = W21 (ix2 k j)) (h14 : ∀ j : Fin 256, P14 (ix2 (0 : Fin 1) j) = b21 (ix1 j))
    (p : Fin 2000) (q : Fin 256) :
    E16 (F := Ideal) P0 P1 P2 P3 P4 P5 P6 P7 P8 P9 P10 P11 P12 P13 P14 P15 P16 P17 (ix2 p q)
      = Cert.Spec.mlp (Cert.Spec.row4 (fun a => P0 (ix2 p a)) (fun a => P1 (ix2 p a)) (fun a => P2 (ix2 p a)) (fun a => P3 (ix2 p a)))
          Win bin W10 b10 W20 b20 W11 b11 W21 b21 Wskip bskip q := by
  have i0 : ix16_0 (ix2 p q) = ix2 p q := funext fun a => Fin.ext (by
    match a with
    | ⟨0, _⟩ => rfl
    | ⟨1, _⟩ => rfl)
  have i2 : ix16_2 (ix2 p q) = ix2 (0 : Fin 1) q := funext fun a => Fin.ext (by
    match a with
    | ⟨0, _⟩ => rfl
    | ⟨1, _⟩ => rfl)
  have e4 : (fun k : Fin 256 => k0_pay4 (F := Ideal) P0 P1 P2 P3 P4 P5 P6 (ix2 p k))
      = fun k => Cert.Spec.silu (Cert.Spec.stem (Cert.Spec.row4 (fun a => P0 (ix2 p a)) (fun a => P1 (ix2 p a)) (fun a => P2 (ix2 p a)) (fun a => P3 (ix2 p a))) Win bin k) :=
    funext fun k => pay4_at P0 P1 P2 P3 P4 P5 P6 Win bin h4 h5 h6 p k
  have e8 := pay8_at (k0_pay4 (F := Ideal) P0 P1 P2 P3 P4 P5 P6) P7 P8 P9 P10 P11 P12 P13 P14 W10 W20 W11 W21 b10 b20 b11 b21
    h7 h8 h9 h10 h11 h12 h13 h14 p q
  rw [e4] at e8
  have e5 : k0_pay5 (F := Ideal) P0 P1 P2 P3 P15 P16 (ix2 p q) + P17 (ix2 (0 : Fin 1) q)
      = Cert.Spec.stem (Cert.Spec.row4 (fun a => P0 (ix2 p a)) (fun a => P1 (ix2 p a)) (fun a => P2 (ix2 p a)) (fun a => P3 (ix2 p a))) Wskip bskip q := by
    rw [pay5_at, h17]
    exact stem_of_twoProducts P0 P1 P2 P3 P15 P16 Wskip bskip h15 h16 p q
  show k0_pay8 (F := Ideal) (k0_pay4 (F := Ideal) P0 P1 P2 P3 P4 P5 P6) P7 P8 P9 P10 P11 P12 P13 P14 (ix16_0 (ix2 p q))
      + (k0_pay5 (F := Ideal) P0 P1 P2 P3 P15 P16 (ix16_1 (ix2 p q)) + P17 (ix16_2 (ix2 p q))) = _
  rw [show ix16_1 (ix2 p q) = ix2 p q from i0, i0, i2, e8, e5]
  rfl

end Cert.KerMlp

end
-- ==== Proof.KernelFinal.lean ====
import proofs.«413987_j66022237274250_3_alg».proof.Proof.Gen.KernelIdeal.Value
import proofs.«413987_j66022237274250_3_alg».proof.Proof.Spec
import proofs.«413987_j66022237274250_3_alg».proof.Proof.BlockRead
import proofs.«413987_j66022237274250_3_alg».proof.Proof.HostStageA
import proofs.«413987_j66022237274250_3_alg».proof.Proof.HostStageB
import proofs.«413987_j66022237274250_3_alg».proof.Proof.KerMlp
import Idealize.ShloMosaic.Lib.Pipeline.Value
import Idealize.ShloMosaic.Lib.ValueIdx

/-! The kernel's result array is the layer of the specification.

    Grid point `t` writes back rows `2000 t … 2000 t + 1999` of the output; row `p` of what it writes is the row
    function of the specification at the feature row made of row `2000 t + p` of the node features and of the three
    thirds of the aggregate the region found. The fifty blocks tile the [100000, 256] output, so after the run the
    whole array is `Spec.out` of the node features, that aggregate, and the weights and biases as launched. -/

noncomputable section

namespace Cert.KernelFinal

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The output the specification assigns to the kernel's memory: the layer over the launched node features, weights and
    biases, and the aggregate `main_v15` the host operations before the region computed. -/
def G (c : Dev nD) : S100000x256.Idx → EReal :=
  Cert.Spec.out (m ((c : Thread nD τ).loc main_arg0)) (V m c main_v15 : S300000x128.Idx → EReal)
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- A bias laid out as one row, read at column `j`. -/
theorem bias_read (b : S256.Idx → EReal) (j : Fin 256) :
    shapeCast S1x256 b shapeCasts_S256_S1x256 (ix2 (0 : Fin 1) j) = b (ix1 j) :=
  shapeCast_apply b shapeCasts_S256_S1x256 (ix2 (0 : Fin 1) j) (ix1 j) (by
    rw [Shape.rowMajor_val_one, Shape.rowMajor_val_two]; show j.val = 0 * 256 + j.val; omega)

/-- The first third of the aggregate, read at `(r, a)`. -/
theorem third0_read (A : S300000x128.Idx → EReal) (r : Fin 100000) (a : Fin 128) :
    extractStridedSlice S100000x128 ![0, 0] A slices_S300000x128_S100000x128_0_0 (ix2 r a) = A (ix2 ⟨r.val, by omega⟩ a) :=
  extractStridedSlice_apply ![0, 0] A slices_S300000x128_S100000x128_0_0 (ix2 r a) (ix2 ⟨r.val, by omega⟩ a) (fun d => match d with
    | ⟨0, _⟩ => by show r.val = 0 + r.val; omega
    | ⟨1, _⟩ => by show a.val = 0 + a.val; omega)

/-- The second third, read at `(r, a)`. -/
theorem third1_read (A : S300000x128.Idx → EReal) (r : Fin 100000) (a : Fin 128) :
    extractStridedSlice S100000x128 ![100000, 0] A slices_S300000x128_S100000x128_100000_0 (ix2 r a) = A (ix2 ⟨100000 + r.val, by omega⟩ a) :=
  extractStridedSlice_apply ![100000, 0] A slices_S300000x128_S100000x128_100000_0 (ix2 r a) (ix2 ⟨100000 + r.val, by omega⟩ a) (fun d => match d with
    | ⟨0, _⟩ => by show 100000 + r.val = 100000 + r.val; omega
    | ⟨1, _⟩ => by show a.val = 0 + a.val; omega)

/-- The last third, read at `(r, a)`. -/
theorem third2_read (A : S300000x128.Idx → EReal) (r : Fin 100000) (a : Fin 128) :
    extractStridedSlice S100000x128 ![200000, 0] A slices_S300000x128_S100000x128_200000_0 (ix2 r a) = A (ix2 ⟨200000 + r.val, by omega⟩ a) :=
  extractStridedSlice_apply ![200000, 0] A slices_S300000x128_S100000x128_200000_0 (ix2 r a) (ix2 ⟨200000 + r.val, by omega⟩ a) (fun d => match d with
    | ⟨0, _⟩ => by show 200000 + r.val = 200000 + r.val; omega
    | ⟨1, _⟩ => by show a.val = 0 + a.val; omega)

/-- The feature row the body sees at block row `p` of point `t` is node `2000 t + p`'s feature row. -/
theorem feat_row (c : Dev nD) (t : Fin cfg0.N) (p : Fin 2000) :
    Cert.Spec.row4 (fun a => View.ld (iblk m c 0 t) r0_0 (ix2 p a)) (fun a => View.ld (iblk m c 1 t) r0_0 (ix2 p a))
        (fun a => View.ld (iblk m c 2 t) r0_0 (ix2 p a)) (fun a => View.ld (iblk m c 3 t) r0_0 (ix2 p a))
      = Cert.Spec.featRow (m ((c : Thread nD τ).loc main_arg0)) (V m c main_v15 : S300000x128.Idx → EReal) ⟨t.val * 2000 + p.val, Cert.BlockRead.row_lt t p⟩ := by
  funext k
  unfold Cert.Spec.featRow Cert.Spec.row4
  by_cases h0 : k.val < 128
  · rw [dif_pos h0, dif_pos h0]
    exact (Cert.BlockRead.ld_w0 m c t p _).trans (by rw [V_main_arg0])
  · rw [dif_neg h0, dif_neg h0]
    by_cases h1 : k.val < 256
    · rw [dif_pos h1, dif_pos h1]
      exact (Cert.BlockRead.ld_w1 m c t p _).trans (by rw [Cert.HostStageA.V_v16, third0_read])
    · rw [dif_neg h1, dif_neg h1]
      by_cases h2 : k.val < 384
      · rw [dif_pos h2, dif_pos h2]
        exact (Cert.BlockRead.ld_w2 m c t p _).trans (by rw [Cert.HostStageA.V_v17, third1_read])
      · rw [dif_neg h2, dif_neg h2]
        exact (Cert.BlockRead.ld_w3 m c t p _).trans (by rw [Cert.HostStageA.V_v18, third2_read])

/-- WHAT POINT `t` WRITES BACK is block `t` of the specification's output. -/
theorem flushed_eq (c : Dev nD) (t : Fin cfg0.N) :
    (dats m 0 c).flushed 16 t = ((cfg0.win 16).blk t).view.read (Elt Ideal) (G m c) := by
  rw [flushed16]
  funext y
  obtain ⟨p, q, rfl⟩ : ∃ (p : Fin 2000) (q : Fin 256), y = ix2 p q := ⟨y 0, y 1, eq_ix2 y⟩
  obtain ⟨ht, -, -, -, -, -, -, -, -, e0, e1⟩ := Cert.BlockRead.row_idx t
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q)
      = G m c (((cfg0.win 16).blk t).view.emb (ix2 p q))
  unfold out0_16
  refine (canon16_eq (F := Ideal) (View.ld (iblk m c 0 t) r0_0) (View.ld (iblk m c 1 t) r0_0) (View.ld (iblk m c 2 t) r0_0) (View.ld (iblk m c 3 t) r0_0)
    (View.ld (iblk m c 4 t) r0_1) (View.ld (iblk m c 4 t) r0_2) (View.ld (iblk m c 5 t) r0_3)
    (View.ld (iblk m c 6 t) r0_4) (View.ld (iblk m c 7 t) r0_3) (View.ld (iblk m c 8 t) r0_4) (View.ld (iblk m c 9 t) r0_3)
    (View.ld (iblk m c 10 t) r0_4) (View.ld (iblk m c 11 t) r0_3) (View.ld (iblk m c 12 t) r0_4) (View.ld (iblk m c 13 t) r0_3)
    (View.ld (iblk m c 14 t) r0_1) (View.ld (iblk m c 14 t) r0_2) (View.ld (iblk m c 15 t) r0_3) (ix2 p q)).trans ?_
  refine (Cert.KerMlp.block_out _ _ _ _ _ _ _ _ _ _ _ _ _ _ _ _ _ _
    (m ((c : Thread nD τ).loc main_arg3)) (m ((c : Thread nD τ).loc main_arg13)) (m ((c : Thread nD τ).loc main_arg4)) (m ((c : Thread nD τ).loc main_arg14)) (m ((c : Thread nD τ).loc main_arg6)) (m ((c : Thread nD τ).loc main_arg8)) (m ((c : Thread nD τ).loc main_arg10)) (m ((c : Thread nD τ).loc main_arg12))
    (m ((c : Thread nD τ).loc main_arg5)) (m ((c : Thread nD τ).loc main_arg7)) (m ((c : Thread nD τ).loc main_arg9)) (m ((c : Thread nD τ).loc main_arg11))
    (fun k j => by rw [Cert.BlockRead.ld_w4_top, Cert.HostStageB.V_v25]; rfl)
    (fun k j => by rw [Cert.BlockRead.ld_w4_bot, Cert.HostStageB.V_v25]; rfl)
    (fun k j => by rw [Cert.BlockRead.ld_w14_top, Cert.HostStageB.V_v26]; rfl)
    (fun k j => by rw [Cert.BlockRead.ld_w14_bot, Cert.HostStageB.V_v26]; rfl)
    (fun j => by rw [Cert.BlockRead.ld_w5, Cert.HostStageB.V_v19, bias_read])
    (fun j => by rw [Cert.BlockRead.ld_w15, Cert.HostStageB.V_v20, bias_read])
    (fun k j => by rw [Cert.BlockRead.ld_w6, Cert.HostStageB.V_v27]; rfl)
    (fun j => by rw [Cert.BlockRead.ld_w7, Cert.HostStageB.V_v21, bias_read])
    (fun k j => by rw [Cert.BlockRead.ld_w8, Cert.HostStageB.V_v28]; rfl)
    (fun j => by rw [Cert.BlockRead.ld_w9, Cert.HostStageB.V_v22, bias_read])
    (fun k j => by rw [Cert.BlockRead.ld_w10, Cert.HostStageB.V_v29]; rfl)
    (fun j => by rw [Cert.BlockRead.ld_w11, Cert.HostStageB.V_v23, bias_read])
    (fun k j => by rw [Cert.BlockRead.ld_w12, Cert.HostStageB.V_v30]; rfl)
    (fun j => by rw [Cert.BlockRead.ld_w13, Cert.HostStageB.V_v24, bias_read])
    p q).trans ?_
  rw [feat_row]
  unfold G Cert.Spec.out
  have hr : ((((cfg0.win 16).blk t).view.emb (ix2 p q)) 0 : Fin 100000) = ⟨t.val * 2000 + p.val, Cert.BlockRead.row_lt t p⟩ :=
    Fin.ext (by show win0_16.index t (0 : Fin 2) * 2000 + 1 * p.val = t.val * 2000 + p.val; omega)
  have hq : ((((cfg0.win 16).blk t).view.emb (ix2 p q)) 1 : Fin 256) = q :=
    Fin.ext (by show win0_16.index t (1 : Fin 2) * 256 + 1 * q.val = q.val; omega)
  rw [hr, hq]
  rfl

/-- An index of the output is in point `t`'s block iff each coordinate is in the block's range on its axis. -/
theorem mem_blk16 (t : Fin cfg0.N) (i : S100000x256.Idx) :
    i ∈ ((cfg0.win 16).blk t).view.set ↔ ∀ a : Fin 2, win0_16.index t a * S2000x256.size a ≤ (i a).val ∧ (i a).val < win0_16.index t a * S2000x256.size a + S2000x256.size a := by
  show i ∈ ((View.whole main_v31).slice (win0_16.rect t)).set ↔ _
  rw [View.set_slice_whole, Rect.mem_set_unit]
  exact Iff.rfl

/-- Every block row of the output is some point's. -/
theorem onto16 : ∀ q0 : Fin 50, ∃ t : Fin cfg0.N, win0_16.index t = ![q0.val, 0] :=
  (by decide +kernel : ∀ q0 : Fin 50, ∃ t : Fin grid0.N, win0_16.index t = ![q0.val, 0])

/-- The fifty blocks tile the output: row `r` is in the block of point `r / 2000`. -/
theorem cover16 (i : S100000x256.Idx) :
    ∃ t : Fin cfg0.N, (cfg0.win 16).flush t = true ∧ i ∈ ((cfg0.win 16).blk t).view.set := by
  have hi0 : (i 0).val < 100000 := (i 0).isLt
  have hi1 : (i 1).val < 256 := (i 1).isLt
  obtain ⟨t, ht⟩ := onto16 ⟨(i 0).val / 2000, by omega⟩
  have q0 : win0_16.index t (0 : Fin 2) = (i 0).val / 2000 := congrFun ht 0
  have q1 : win0_16.index t (1 : Fin 2) = 0 := congrFun ht 1
  refine ⟨t, flush0_16 t, ?_⟩
  rw [mem_blk16]
  intro a
  match a with
  | ⟨0, _⟩ => show win0_16.index t (0 : Fin 2) * 2000 ≤ (i 0).val ∧ (i 0).val < win0_16.index t (0 : Fin 2) * 2000 + 2000; omega
  | ⟨1, _⟩ => show win0_16.index t (1 : Fin 2) * 256 ≤ (i 1).val ∧ (i 1).val < win0_16.index t (1 : Fin 2) * 256 + 256; omega

/-- THE OUTPUT ARRAY after the run is the specification's output. -/
theorem final (c : Dev nD) : (dats m 0 c).arrAt 16 cfg0.N = G m c :=
  (dats m 0 c).arrAt_eq_of_cover 16 (G m c) (fun t _ => flushed_eq m c t) cover16

/-- The kernel's run, re-posted: the result at the specification's output, the arguments unchanged. -/
theorem run : θ_run defs (onTc (τ := τ) (main (F := Ideal))) ⟨m, fun _ => 0, ρ⟩ fun r => ∀ c : Dev nD,
      r.2.mem ((c : Thread nD τ).loc main_v31) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (run_blocks m ρ)

end Cert.KernelFinal

end
-- ==== Proof.IndexWord.lean ====
import Idealize.ShloMosaic.PureOps.Vector

/-! The two index words of one edge.

    For a source word `s` the kernel gathers row `s mod 100000` of the node features, the remainder taken with the
    divisor's sign: the truncated remainder `r` of `s` by 100000, plus 100000 when `r` is negative. The reference
    gathers row `s`, or `s + 300000` when `s` is negative, of the features tiled three times. For
    `-300000 ≤ s < 300000` the second is a row number below 300000, and the first is that row number modulo 100000. -/

namespace Cert.IndexWord

open Idealize.ShloMosaic

/-- The kernel's row word: the remainder of `s` by the (nonzero) divisor 100000 with the divisor's sign, then
    the wrap of a negative row number, which never fires. -/
def kWord (s : BitVec 32) : BitVec 32 :=
  let d : BitVec 32 := Scalar.select (IntOp.cmpi .eq (100000#32) (0#32)) (1#32) (100000#32)
  let r : BitVec 32 := IntOp.remsi .host s d
  let c : BitVec 1 := IntOp.andi (IntOp.cmpi .ne (IntOp.cmpi .slt r (0#32)) (IntOp.cmpi .slt d (0#32))) (IntOp.cmpi .ne r (0#32))
  let i0 : BitVec 32 := Scalar.select c (IntOp.addi r d) r
  Scalar.select (IntOp.cmpi .slt i0 (0#32)) (IntOp.addi i0 (100000#32)) i0

/-- The reference's row word: a negative `s` wraps by the tiled extent 300000. -/
def rWord (s : BitVec 32) : BitVec 32 :=
  Scalar.select (IntOp.cmpi .slt s (0#32)) (IntOp.addi s (300000#32)) s

theorem toInt_100000 : (100000#32 : BitVec 32).toInt = 100000 := by decide
theorem toInt_300000 : (300000#32 : BitVec 32).toInt = 300000 := by decide
theorem toInt_zero32 : (0#32 : BitVec 32).toInt = 0 := by decide

theorem cmpi_slt_eq_one {a b : BitVec 32} : IntOp.cmpi .slt a b = (1 : BitVec 1) ↔ a.toInt < b.toInt := by
  simp only [IntOp.cmpi]
  rw [← BitVec.slt_iff_toInt_lt]
  cases BitVec.slt a b <;> decide

theorem divisor_eq : Scalar.select (IntOp.cmpi .eq (100000#32 : BitVec 32) (0#32)) (1#32 : BitVec 32) (100000#32) = 100000#32 := by
  decide

theorem remsi_eq (s : BitVec 32) : IntOp.remsi .host s (100000#32) = s.srem (100000#32) := by
  unfold IntOp.remsi
  rw [if_neg]
  intro h
  rcases h with h | ⟨_, h⟩
  · exact absurd h (by decide)
  · exact absurd h (by decide)

/-- The truncated remainder as an integer: `s mod 100000` less 100000 when `s` is negative and not a multiple. -/
theorem srem_toInt (s : BitVec 32) :
    (s.srem (100000#32)).toInt = s.toInt % 100000 - (if 0 ≤ s.toInt ∨ s.toInt % 100000 = 0 then 0 else 100000) := by
  rw [BitVec.toInt_srem, toInt_100000, Int.tmod_eq_emod]
  simp only [Int.dvd_iff_emod_eq_zero]
  by_cases h : 0 ≤ s.toInt ∨ s.toInt % 100000 = 0
  · rw [if_pos h, if_pos h]; rfl
  · rw [if_neg h, if_neg h]; rfl

/-- An addition of two words whose integer sum fits is the integer sum. -/
theorem addi_toInt {a b : BitVec 32} (hlo : -(2 : Int) ^ 31 ≤ a.toInt + b.toInt) (hhi : a.toInt + b.toInt < (2 : Int) ^ 31) :
    (IntOp.addi a b).toInt = a.toInt + b.toInt := by
  unfold IntOp.addi
  rw [BitVec.toInt_add]
  exact Int.bmod_eq_of_le (by omega) (by omega)

/-- The reference's row number. -/
theorem rWord_toInt (s : BitVec 32) (hlo : -300000 ≤ s.toInt) (hhi : s.toInt < 300000) :
    (rWord s).toInt = if s.toInt < 0 then s.toInt + 300000 else s.toInt := by
  unfold rWord Scalar.select
  by_cases hs : s.toInt < 0
  · rw [if_pos (cmpi_slt_eq_one.mpr (by rw [toInt_zero32]; exact hs)), if_pos hs,
      addi_toInt (by rw [toInt_300000]; omega) (by rw [toInt_300000]; omega), toInt_300000]
  · rw [if_neg (fun h => hs (by have := cmpi_slt_eq_one.mp h; rwa [toInt_zero32] at this)), if_neg hs]

/-- The kernel's row number: `s` modulo 100000, in `[0, 100000)`. -/
theorem kWord_toInt (s : BitVec 32) (hlo : -300000 ≤ s.toInt) (hhi : s.toInt < 300000) :
    (kWord s).toInt = s.toInt % 100000 := by
  have hr := srem_toInt s
  have hm0 : 0 ≤ s.toInt % 100000 := Int.emod_nonneg _ (by decide)
  have hm1 : s.toInt % 100000 < 100000 := Int.emod_lt_of_pos _ (by decide)
  unfold kWord
  simp only [divisor_eq, remsi_eq]
  generalize hR : s.srem (100000#32) = r at hr
  have hd0 : ¬ IntOp.cmpi .slt (100000#32 : BitVec 32) (0#32) = (1 : BitVec 1) := by decide
  -- the first fix-up leaves s mod 100000
  have h0 : (Scalar.select (IntOp.andi (IntOp.cmpi .ne (IntOp.cmpi .slt r (0#32)) (IntOp.cmpi .slt (100000#32) (0#32)))
      (IntOp.cmpi .ne r (0#32))) (IntOp.addi r (100000#32)) r).toInt = s.toInt % 100000 := by
    by_cases hneg : r.toInt < 0
    · have hc : IntOp.andi (IntOp.cmpi .ne (IntOp.cmpi .slt r (0#32)) (IntOp.cmpi .slt (100000#32) (0#32)))
          (IntOp.cmpi .ne r (0#32)) = (1 : BitVec 1) := by
        have h1 : IntOp.cmpi .slt r (0#32) = (1 : BitVec 1) := cmpi_slt_eq_one.mpr (by rw [toInt_zero32]; exact hneg)
        have h2 : IntOp.cmpi .slt (100000#32 : BitVec 32) (0#32) = 0#1 := by decide
        have h3 : IntOp.cmpi .ne r (0#32) = (1 : BitVec 1) := by
          have : r ≠ 0#32 := fun h => by rw [h, toInt_zero32] at hneg; omega
          simp only [IntOp.cmpi]; rw [bne_iff_ne.mpr this]; rfl
        rw [h1, h2, h3]; decide
      unfold Scalar.select
      rw [if_pos hc, addi_toInt (by rw [toInt_100000]; omega) (by rw [toInt_100000]; omega), toInt_100000, hr]
      split <;> omega
    · have hc : ¬ IntOp.andi (IntOp.cmpi .ne (IntOp.cmpi .slt r (0#32)) (IntOp.cmpi .slt (100000#32) (0#32)))
          (IntOp.cmpi .ne r (0#32)) = (1 : BitVec 1) := by
        have h1 : IntOp.cmpi .slt r (0#32) = 0#1 := by
          have : ¬ IntOp.cmpi .slt r (0#32) = (1 : BitVec 1) := fun h => hneg (by have := cmpi_slt_eq_one.mp h; rwa [toInt_zero32] at this)
          revert this; generalize IntOp.cmpi .slt r (0#32) = b; revert b; decide
        have h2 : IntOp.cmpi .slt (100000#32 : BitVec 32) (0#32) = 0#1 := by decide
        rw [h1, h2]
        generalize IntOp.cmpi .ne r (0#32) = b; revert b; decide
      unfold Scalar.select
      rw [if_neg hc, hr]
      split <;> omega
  generalize Scalar.select (IntOp.andi (IntOp.cmpi .ne (IntOp.cmpi .slt r (0#32)) (IntOp.cmpi .slt (100000#32) (0#32)))
      (IntOp.cmpi .ne r (0#32))) (IntOp.addi r (100000#32)) r = i0 at h0
  unfold Scalar.select
  rw [if_neg (fun h => by have := cmpi_slt_eq_one.mp h; rw [toInt_zero32, h0] at this; omega), h0]

/-- The reference's row number lies in the tiled array, and the kernel's is that row modulo the number of nodes. -/
theorem words (s : BitVec 32) (hlo : -300000 ≤ s.toInt) (hhi : s.toInt < 300000) :
    0 ≤ (rWord s).toInt ∧ (rWord s).toInt < 300000 ∧ 0 ≤ (kWord s).toInt ∧ (kWord s).toInt < 100000
      ∧ (kWord s).toInt = (rWord s).toInt % 100000 := by
  rw [rWord_toInt s hlo hhi, kWord_toInt s hlo hhi]
  refine ⟨by split <;> omega, by split <;> omega, Int.emod_nonneg _ (by decide), Int.emod_lt_of_pos _ (by decide), ?_⟩
  split <;> omega

end Cert.IndexWord
-- ==== Proof.HostStageC.lean ====
import proofs.«413987_j66022237274250_3_alg».proof.Proof.Gen.KernelIdeal.Frame
import proofs.«413987_j66022237274250_3_alg».proof.Proof.IndexWord
import Idealize.ShloMosaic.Lib.StableHlo.Run
import Idealize.ShloMosaic.Lib.ValueIdx
import Idealize.ShloMosaic.Lib.Pipeline.Value

/-! The kernel's row word of each edge.

    The row the kernel gathers for edge `e` is computed by the program from the edge's source index: the remainder by
    100000 with the divisor's sign, then a wrap of negatives that never fires. That is `IndexWord.kWord` of the source
    index, operation for operation. -/

noncomputable section

namespace Cert.HostStageC

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ)

set_option maxHeartbeats 4000000 in
/-- Edge `e`'s row word is the kernel's row word of its source index. -/
theorem V_v6_apply (c : Dev nD) (e : Fin 640000) :
    (V m c main_v6 : IVec S640000x1 32) (ix2 e (0 : Fin 1)) = Cert.IndexWord.kWord ((m ((c : Thread nD τ).loc main_arg2) : IVec S640000 32) (ix1 e)) := by
  dsimp only [V]
  simp only [hostOps0, hostOps0_1, hostOps0_2, List.flatten_cons, List.flatten_nil, List.append_nil, List.cons_append, List.nil_append]
  after_results_simp
  simp only [TRef.ofBuf, TRef.toBuf, cast_eq]
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  rfl

end Cert.HostStageC

end
-- ==== Proof.GatherEq.lean ====
import proofs.«413987_j66022237274250_3_alg».proof.KernelIdeal
import proofs.«413987_j66022237274250_3_alg».proof.ReferenceIdeal
import proofs.«413987_j66022237274250_3_alg».proof.Proof.IndexWord
import proofs.«413987_j66022237274250_3_alg».proof.Proof.Spec
import Idealize.ShloMosaic.Lib.ValueIdx

/-! The two gathers read the same rows.

    Each program gathers, for every edge `e`, one 128-wide row of node features. The reference reads row `R` of the
    features tiled three times, a `300000 × 128` array whose row `h · 100000 + r` is row `r` of the features; the kernel
    reads row `R mod 100000` of the features themselves. A gather of whole rows reads, at result index `(e, q)`, the
    operand at row `min (start index) (rows − 1)` and column `q`. For a source word in `[-300000, 300000)` both start
    indices are row numbers in range, so neither `min` clamps, and with `R = (R / 100000) · 100000 + R mod 100000` the
    tiled array's row `R` is the features' row `R mod 100000`: the two gathered arrays are equal. -/

namespace Cert.GatherEq

open Idealize.ShloMosaic Idealize.ShloMosaic.ValueIdx

section Rows
variable {α : Type}

/-- The dimension numbers of a gather of whole rows: operand `[N, C]`, start indices `[E, 1]`, result `[E, C]`; the
    row axis is collapsed and indexed by the one-component start index, the column axis is the offset axis, and a
    slice is one row. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, q)`: the operand at the row the start index `idx[e, 0]` names, read signed and
    clamped into `[0, N − 1]`, and at column `q`. On the row axis the operand index is the clamped start alone (the
    axis is collapsed, so it has no offset coordinate, and there are no batching axes); on the column axis the start
    is `0` (the start index map does not name it) and the offset coordinate is `q`. -/
theorem rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q)
      = x (ix2 ⟨min (idx (ix2 e (0 : Fin 1))).toInt.toNat (N - 1), by omega⟩ q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    -- the start index of result index `(e, q)` is read at `(e, 0)`
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    unfold GatherDims.start
    rw [dif_neg (show ¬ (1 : Fin 2) ∈ (rowDims N E C wf).startIndexMap from
      (by decide : (1 : Fin 2) ∉ ([0] : List (Fin 2))))]
    simp only [Nat.add_zero, Nat.zero_add]
    rfl

/-- The same with the start index word named: if `idx[e, 0]` is the word `k`, the row read is `min k (N − 1)`. -/
theorem rows_apply_of_eq {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C)
    (k : BitVec w) (hk : idx (ix2 e (0 : Fin 1)) = k) :
    Host.gather (rowDims N E C wf) x idx (ix2 e q) = x (ix2 ⟨min k.toInt.toNat (N - 1), by omega⟩ q) := by
  subst hk
  exact rows_apply hN wf x idx e q

/-- Row `R` of the tiled features is row `R mod 100000` of the features, for a row number `0 ≤ R < 300000`, with
    both rows written as the clamped start indices the two gathers compute: `k = R mod 100000` lies below `100000`
    and `R` below `300000`, so the clamps do nothing, and `R = (R / 100000) · 100000 + R mod 100000` with
    `R / 100000 < 3`. -/
theorem row_eq_int (x : Cert.Spec.SX.Idx → α) (tiled : Cert.Spec.SA.Idx → α)
    (htile : ∀ (h : Fin 3) (r : Fin 100000) (q : Fin 128), tiled (ix2 ⟨h.val * 100000 + r.val, by omega⟩ q) = x (ix2 r q))
    (k r : Int) (h0 : 0 ≤ r) (h1 : r < 300000) (h2 : 0 ≤ k) (h3 : k < 100000) (h4 : k = r % 100000) (q : Fin 128) :
    x (ix2 (⟨min k.toNat (100000 - 1), by omega⟩ : Fin 100000) q)
      = tiled (ix2 (⟨min r.toNat (300000 - 1), by omega⟩ : Fin 300000) q) := by
  have hRn : (r.toNat : Int) = r := Int.toNat_of_nonneg h0
  have hKn : (k.toNat : Int) = k := Int.toNat_of_nonneg h2
  have hR : r.toNat < 300000 := by omega
  have hK : k.toNat = r.toNat % 100000 := by omega
  have e1 : ∀ p, (⟨min k.toNat (100000 - 1), p⟩ : Fin 100000) = ⟨r.toNat % 100000, Nat.mod_lt _ (by decide)⟩ :=
    fun _ => Fin.ext (show min k.toNat (100000 - 1) = r.toNat % 100000 by omega)
  have e2 : ∀ p, (⟨min r.toNat (300000 - 1), p⟩ : Fin 300000)
      = ⟨(r.toNat / 100000) * 100000 + r.toNat % 100000, by omega⟩ :=
    fun _ => Fin.ext (show min r.toNat (300000 - 1) = (r.toNat / 100000) * 100000 + r.toNat % 100000 by omega)
  rw [e1, e2]
  exact (htile ⟨r.toNat / 100000, by omega⟩ ⟨r.toNat % 100000, Nat.mod_lt _ (by decide)⟩ q).symm

/-- The same for the two index words of a source word `s` with `-300000 ≤ s < 300000`. -/
theorem row_eq (x : Cert.Spec.SX.Idx → α) (tiled : Cert.Spec.SA.Idx → α)
    (htile : ∀ (h : Fin 3) (r : Fin 100000) (q : Fin 128), tiled (ix2 ⟨h.val * 100000 + r.val, by omega⟩ q) = x (ix2 r q))
    (s : BitVec 32) (hlo : -300000 ≤ s.toInt) (hhi : s.toInt < 300000) (q : Fin 128) :
    x (ix2 (⟨min (Cert.IndexWord.kWord s).toInt.toNat (100000 - 1), by omega⟩ : Fin 100000) q)
      = tiled (ix2 (⟨min (Cert.IndexWord.rWord s).toInt.toNat (300000 - 1), by omega⟩ : Fin 300000) q) := by
  obtain ⟨h0, h1, h2, h3, h4⟩ := Cert.IndexWord.words s hlo hhi
  exact row_eq_int x tiled htile _ _ h0 h1 h2 h3 h4 q

end Rows

/-- The kernel's gather of the features at its row words is the reference's gather of the tiled features at its row
    words, element for element. -/
theorem gathered_eq [Cert.KernelIdeal.Facts] [Cert.ReferenceIdeal.Facts]
    (x : Cert.Spec.SX.Idx → EReal) (tiled : Cert.Spec.SA.Idx → EReal)
    (htile : ∀ (h : Fin 3) (r : Fin 100000) (q : Fin 128), tiled (ix2 ⟨h.val * 100000 + r.val, by omega⟩ q) = x (ix2 r q))
    (src : IVec ⟨1, ![640000]⟩ 32) (kidx ridx : IVec ⟨2, ![640000, 1]⟩ 32)
    (hk : ∀ e : Fin 640000, kidx (ix2 e (0 : Fin 1)) = Cert.IndexWord.kWord (src (ix1 e)))
    (hr : ∀ e : Fin 640000, ridx (ix2 e (0 : Fin 1)) = Cert.IndexWord.rWord (src (ix1 e)))
    (hsrc : ∀ e : Fin 640000, -300000 ≤ (src (ix1 e)).toInt ∧ (src (ix1 e)).toInt < 300000) :
    Host.gather Cert.KernelIdeal.gather_S100000x128_S640000x1_S640000x128_1_0_n_n_0_1_1128 x kidx
      = Host.gather Cert.ReferenceIdeal.gather_S300000x128_S640000x1_S640000x128_1_0_n_n_0_1_1128 tiled ridx := by
  funext j
  obtain ⟨e, q, rfl⟩ : ∃ (e : Fin 640000) (q : Fin 128), j = ix2 e q := ⟨j 0, j 1, eq_ix2 j⟩
  -- both printed records are the record of a gather of rows
  have hK : Cert.KernelIdeal.gather_S100000x128_S640000x1_S640000x128_1_0_n_n_0_1_1128
      = rowDims 100000 640000 128 Cert.KernelIdeal.Facts₀.gather_S100000x128_S640000x1_S640000x128_1_0_n_n_0_1_1128_wf := rfl
  have hR : Cert.ReferenceIdeal.gather_S300000x128_S640000x1_S640000x128_1_0_n_n_0_1_1128
      = rowDims 300000 640000 128 Cert.ReferenceIdeal.Facts₀.gather_S300000x128_S640000x1_S640000x128_1_0_n_n_0_1_1128_wf := rfl
  rw [hK, hR]
  exact (rows_apply_of_eq (by decide) _ x kidx e q _ (hk e)).trans
    ((row_eq x tiled htile (src (ix1 e)) (hsrc e).1 (hsrc e).2 q).trans
      (rows_apply_of_eq (by decide) _ tiled ridx e q _ (hr e)).symm)

end Cert.GatherEq
-- ==== Proof.TileRead.lean ====
import proofs.«413987_j66022237274250_3_alg».proof.Proof.RefStages
import Idealize.ShloMosaic.Lib.ValueIdx

/-! The reference's tiled features, read at a row.

    The reference reshapes the `100000 × 128` features to `1 × 100000 × 1 × 128`, broadcasts the leading axis to 3, and
    reshapes the result to `300000 × 128`. Read at row `h · 100000 + r` and column `q`: the last reshape sends the
    row-major offset `(h · 100000 + r) · 128 + q` to the coordinates `(h, r, 0, q)`, the broadcast forgets `h`, and the
    first reshape sends `(0, r, 0, q)`, at offset `r · 128 + q`, to `(r, q)`. So the tiled array's row
    `h · 100000 + r` is the features' row `r`. -/

namespace Cert.TileRead

open Idealize.ShloMosaic Idealize.ShloMosaic.ValueIdx Cert.ReferenceIdeal.Read

/-- The three index maps composed: `(h · 100000 + r, q) ↦ (h, r, 0, q) ↦ (0, r, 0, q) ↦ (r, q)`. -/
theorem idx_tile (h : Fin 3) (r : Fin 100000) (q : Fin 128) :
    idx_main_v0 (idx_main_v1 (idx_main_v2 (ix2 (⟨h.val * 100000 + r.val, by omega⟩ : Fin 300000) q))) = ix2 r q := by
  funext a
  refine Fin.ext ?_
  match a with
  | ⟨0, _⟩ =>
    show ((((0 * 100000 + ((h.val * 100000 + r.val) * 128 + q.val) / 128 % 100000) * 1 + 0) * 128
      + ((h.val * 100000 + r.val) * 128 + q.val) % 128) / 128 : Nat) = r.val
    omega
  | ⟨1, _⟩ =>
    show ((((0 * 100000 + ((h.val * 100000 + r.val) * 128 + q.val) / 128 % 100000) * 1 + 0) * 128
      + ((h.val * 100000 + r.val) * 128 + q.val) % 128) % 128 : Nat) = q.val
    omega

/-- Row `h · 100000 + r` of the reference's tiled features is row `r` of the features. -/
theorem tile_read (x0 : FVec Ideal Cert.ReferenceIdeal.S100000x128 .f32) (h : Fin 3) (r : Fin 100000) (q : Fin 128) :
    Cert.ReferenceIdeal.Read.val_main_v2 (F := Ideal) x0 (ix2 ⟨h.val * 100000 + r.val, by omega⟩ q) = x0 (ix2 r q) := by
  rw [val_main_v2_apply, val_main_v1_apply, val_main_v0_apply, idx_tile]

end Cert.TileRead
-- ==== Proof.AggEq.lean ====
import proofs.«413987_j66022237274250_3_alg».proof.Proof.RefStages
import proofs.«413987_j66022237274250_3_alg».proof.Proof.HostStageA
import proofs.«413987_j66022237274250_3_alg».proof.Proof.HostStageC
import proofs.«413987_j66022237274250_3_alg».proof.Proof.GatherEq
import proofs.«413987_j66022237274250_3_alg».proof.Proof.TileRead
import Idealize.ShloMosaic.Lib.ValueIdx

/-! The two aggregates are one array.

    Both programs scatter-add 640000 gathered feature rows into a zero [300000, 128] array at the same target rows (a
    negative target wrapped by 300000 on both sides). Where every source index lies in `[-300000, 300000)` the gathered
    rows are equal — the reference's row of the thrice-tiled features is the kernel's row of the features — so the
    aggregates are equal, as arrays. The scatter-add itself is never opened. -/

noncomputable section

namespace Cert.AggEq

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Edge `e`'s row word in the reference is the wrap of its source index. -/
theorem ref_row_word (x2 : IVec Cert.ReferenceIdeal.S640000 32) (e : Fin 640000) :
    Cert.ReferenceIdeal.Read.val_main_v9 (F := Ideal) x2 (ix2 e (0 : Fin 1)) = Cert.IndexWord.rWord (x2 (ix1 e)) := by
  rw [Cert.ReferenceIdeal.Read.val_main_v9_apply]
  have hj : Cert.ReferenceIdeal.Read.idx_main_v9 (ix2 e (0 : Fin 1)) = ix1 e := by
    funext a; match a with | ⟨0, _⟩ => rfl
  rw [hj]
  rfl

/-- The rows the two programs gather are equal where the source indices are in range. -/
theorem gathered_eq (c : Dev nD)
    (hsrc : ∀ e : Fin 640000, -300000 ≤ ((m ((c : Thread nD τ).loc main_arg2) : IVec S640000 32) (ix1 e)).toInt
      ∧ ((m ((c : Thread nD τ).loc main_arg2) : IVec S640000 32) (ix1 e)).toInt < 300000) :
    (V m c main_v7 : S640000x128.Idx → EReal)
      = Cert.ReferenceIdeal.Read.val_main_v10 (F := Ideal) (m ((c : Thread nD τ).loc main_arg0)) (m ((c : Thread nD τ).loc main_arg2)) := by
  rw [Cert.HostStageA.V_v7]
  unfold Cert.ReferenceIdeal.Read.val_main_v10
  exact Cert.GatherEq.gathered_eq (m ((c : Thread nD τ).loc main_arg0))
    (Cert.ReferenceIdeal.Read.val_main_v2 (F := Ideal) (m ((c : Thread nD τ).loc main_arg0)))
    (Cert.TileRead.tile_read (m ((c : Thread nD τ).loc main_arg0)))
    (m ((c : Thread nD τ).loc main_arg2)) (V m c main_v6 : IVec S640000x1 32)
    (Cert.ReferenceIdeal.Read.val_main_v9 (F := Ideal) (m ((c : Thread nD τ).loc main_arg2)))
    (Cert.HostStageC.V_v6_apply m c) (ref_row_word (m ((c : Thread nD τ).loc main_arg2))) hsrc

/-- THE AGGREGATES AGREE: what the kernel's host operations scatter-add is the reference's `main_v17`. -/
theorem agg_eq (c : Dev nD)
    (hsrc : ∀ e : Fin 640000, -300000 ≤ ((m ((c : Thread nD τ).loc main_arg2) : IVec S640000 32) (ix1 e)).toInt
      ∧ ((m ((c : Thread nD τ).loc main_arg2) : IVec S640000 32) (ix1 e)).toInt < 300000) :
    (V m c main_v15 : S300000x128.Idx → EReal)
      = Cert.ReferenceIdeal.Read.val_main_v17 (F := Ideal) (m ((c : Thread nD τ).loc main_arg0)) (m ((c : Thread nD τ).loc main_arg1)) (m ((c : Thread nD τ).loc main_arg2)) := by
  rw [Cert.HostStageA.V_v15, gathered_eq m c hsrc, Cert.HostStageA.V_v8, Cert.HostStageA.V_v14]
  rfl

end Cert.AggEq

end
-- ==== Proof.RefMlp.lean ====
import proofs.«413987_j66022237274250_3_alg».proof.Proof.RefStages
import proofs.«413987_j66022237274250_3_alg».proof.Proof.Spec
import Idealize.ShloMosaic.Lib.Pipeline.Value
import Idealize.ShloMosaic.Lib.ValueIdx
import Idealize.ShloMosaic.PureOps.Ideal
import Mathlib.Algebra.BigOperators.Group.Finset.Basic

/-! The reference, read row by row.

    The reference's output at `(r, c)` is the layer of `Cert.Spec` applied to node `r`'s feature row, at column `c`.
    The feature row is the concatenation, along the columns, of the node's own 128 features and of rows `r`,
    `100000 + r` and `200000 + r` of the aggregate; the aggregate itself is never opened. Each stage of the reference is
    read at an index `(r, c)` from the stage before it: a matrix product is the sum over the contracted column, a bias is
    read at the column, and `x · (1 / (1 + e^(-x)))` is `silu x` once the constant is known to be `1`. -/

noncomputable section

namespace Cert.RefMlp

open Idealize.ShloMosaic Idealize.ShloMosaic.ValueIdx Cert.ReferenceIdeal Cert.ReferenceIdeal.Read

/-! ## The constant and the activation -/

/-- The single-precision word `0x3F800000` denotes the number `1`. -/
theorem ofBits_one : Ideal.ofBits .f32 0x3F800000#32 = 1 := by
  simp [Ideal.ofBits, Ideal.ieee, -EReal.coe_mul]; norm_num

/-- `z · (1 / (1 + e^(-z)))`, with both ones spelled as that word, is `silu z`. -/
theorem silu_eq (z : Ideal .f32) :
    FloatOps.mulf z (FloatOps.hostDivf (FloatOps.ofBits (F := Ideal) .f32 0x3F800000#32)
      (FloatOps.addf (FloatOps.ofBits (F := Ideal) .f32 0x3F800000#32) (FloatOps.hostUnary .exp (FloatOps.hostNegf z))))
      = Cert.Spec.silu z := by
  show z * Ideal.div (Ideal.ofBits .f32 0x3F800000#32) (Ideal.ofBits .f32 0x3F800000#32 + Ideal.exp (-z))
    = z * Ideal.div 1 (1 + Ideal.exp (-z))
  rw [ofBits_one]

/-! ## Indices: the row and column a contraction reads -/

theorem lidx22 (r : Fin 100000) (c : Fin 256) (k : Fin 512) : lidx_main_v22 (ix2 r c) k = ix2 r k :=
  funext fun a => match a with | ⟨0, _⟩ => rfl | ⟨1, _⟩ => rfl
theorem ridx22 (r : Fin 100000) (c : Fin 256) (k : Fin 512) : ridx_main_v22 (ix2 r c) k = ix2 k c :=
  funext fun a => match a with | ⟨0, _⟩ => rfl | ⟨1, _⟩ => rfl
theorem lidx27 (r : Fin 100000) (c : Fin 256) (k : Fin 512) : lidx_main_v27 (ix2 r c) k = ix2 r k :=
  funext fun a => match a with | ⟨0, _⟩ => rfl | ⟨1, _⟩ => rfl
theorem ridx27 (r : Fin 100000) (c : Fin 256) (k : Fin 512) : ridx_main_v27 (ix2 r c) k = ix2 k c :=
  funext fun a => match a with | ⟨0, _⟩ => rfl | ⟨1, _⟩ => rfl
theorem lidx31 (r : Fin 100000) (c : Fin 256) (k : Fin 256) : lidx_main_v31 (ix2 r c) k = ix2 r k :=
  funext fun a => match a with | ⟨0, _⟩ => rfl | ⟨1, _⟩ => rfl
theorem ridx31 (r : Fin 100000) (c : Fin 256) (k : Fin 256) : ridx_main_v31 (ix2 r c) k = ix2 k c :=
  funext fun a => match a with | ⟨0, _⟩ => rfl | ⟨1, _⟩ => rfl
theorem lidx36 (r : Fin 100000) (c : Fin 256) (k : Fin 256) : lidx_main_v36 (ix2 r c) k = ix2 r k :=
  funext fun a => match a with | ⟨0, _⟩ => rfl | ⟨1, _⟩ => rfl
theorem ridx36 (r : Fin 100000) (c : Fin 256) (k : Fin 256) : ridx_main_v36 (ix2 r c) k = ix2 k c :=
  funext fun a => match a with | ⟨0, _⟩ => rfl | ⟨1, _⟩ => rfl
theorem lidx41 (r : Fin 100000) (c : Fin 256) (k : Fin 256) : lidx_main_v41 (ix2 r c) k = ix2 r k :=
  funext fun a => match a with | ⟨0, _⟩ => rfl | ⟨1, _⟩ => rfl
theorem ridx41 (r : Fin 100000) (c : Fin 256) (k : Fin 256) : ridx_main_v41 (ix2 r c) k = ix2 k c :=
  funext fun a => match a with | ⟨0, _⟩ => rfl | ⟨1, _⟩ => rfl
theorem lidx46 (r : Fin 100000) (c : Fin 256) (k : Fin 256) : lidx_main_v46 (ix2 r c) k = ix2 r k :=
  funext fun a => match a with | ⟨0, _⟩ => rfl | ⟨1, _⟩ => rfl
theorem ridx46 (r : Fin 100000) (c : Fin 256) (k : Fin 256) : ridx_main_v46 (ix2 r c) k = ix2 k c :=
  funext fun a => match a with | ⟨0, _⟩ => rfl | ⟨1, _⟩ => rfl

/-! ## A bias, broadcast over the rows, read at `(r, c)`: its entry `c` -/

theorem v24_eq (x4 : (⟨S256, .f32⟩ : BufTy).Contents (Elt Ideal)) (r : Fin 100000) (c : Fin 256) :
    val_main_v24 (F := Ideal) x4 (ix2 r c) = x4 (ix1 c) := by
  rw [val_main_v24_apply, val_main_v23_apply]
  exact congrArg x4 (funext fun a => match a with | ⟨0, _⟩ => rfl)
theorem v29_eq (x14 : (⟨S256, .f32⟩ : BufTy).Contents (Elt Ideal)) (r : Fin 100000) (c : Fin 256) :
    val_main_v29 (F := Ideal) x14 (ix2 r c) = x14 (ix1 c) := by
  rw [val_main_v29_apply, val_main_v28_apply]
  exact congrArg x14 (funext fun a => match a with | ⟨0, _⟩ => rfl)
theorem v33_eq (x6 : (⟨S256, .f32⟩ : BufTy).Contents (Elt Ideal)) (r : Fin 100000) (c : Fin 256) :
    val_main_v33 (F := Ideal) x6 (ix2 r c) = x6 (ix1 c) := by
  rw [val_main_v33_apply, val_main_v32_apply]
  exact congrArg x6 (funext fun a => match a with | ⟨0, _⟩ => rfl)
theorem v38_eq (x8 : (⟨S256, .f32⟩ : BufTy).Contents (Elt Ideal)) (r : Fin 100000) (c : Fin 256) :
    val_main_v38 (F := Ideal) x8 (ix2 r c) = x8 (ix1 c) := by
  rw [val_main_v38_apply, val_main_v37_apply]
  exact congrArg x8 (funext fun a => match a with | ⟨0, _⟩ => rfl)
theorem v43_eq (x10 : (⟨S256, .f32⟩ : BufTy).Contents (Elt Ideal)) (r : Fin 100000) (c : Fin 256) :
    val_main_v43 (F := Ideal) x10 (ix2 r c) = x10 (ix1 c) := by
  rw [val_main_v43_apply, val_main_v42_apply]
  exact congrArg x10 (funext fun a => match a with | ⟨0, _⟩ => rfl)
theorem v48_eq (x12 : (⟨S256, .f32⟩ : BufTy).Contents (Elt Ideal)) (r : Fin 100000) (c : Fin 256) :
    val_main_v48 (F := Ideal) x12 (ix2 r c) = x12 (ix1 c) := by
  rw [val_main_v48_apply, val_main_v47_apply]
  exact congrArg x12 (funext fun a => match a with | ⟨0, _⟩ => rfl)

/-! ## The feature row: four 128-wide pieces laid end to end -/

section Layers
variable (x0 : (⟨S100000x128, .f32⟩ : BufTy).Contents (Elt Ideal)) (x1 x2 : (⟨S640000, .i32⟩ : BufTy).Contents (Elt Ideal))

/-- A column off the joined axis is kept, and the joined axis is the second one. -/
theorem off_axis {n : Nat} (r : Fin 100000) (q : Fin n) (j : (⟨2, ![100000, 512]⟩ : Shape).Idx) (hj : (j 0).val = r.val)
    (b : Fin 2) (hb : b ≠ 1) : ((ix2 r q : (⟨2, ![100000, n]⟩ : Shape).Idx) b).val = (j b).val := by
  match b, hb with
  | ⟨0, _⟩, _ => exact hj.symm
  | ⟨1, _⟩, hb => exact absurd rfl hb

/-- Columns `0 … 127` are the node's own features. -/
theorem cat0 (r : Fin 100000) (k : Fin 512) (h0 : k.val < 128) :
    val_main_v21 (F := Ideal) x0 x1 x2 (ix2 r k) = x0 (ix2 r ⟨k.val, h0⟩) := by
  unfold val_main_v21
  exact concatenate_apply_piece _ _ _ (ix2 r k) 0 (by show (0 : Nat) < 4; omega) S100000x128 x0 rfl rfl 0 rfl (ix2 r ⟨k.val, h0⟩)
    (fun b hb => off_axis r _ (ix2 r k) rfl b hb) (by show 0 + k.val = k.val; omega)

/-- Columns `128 … 255` are row `r` of the aggregate. -/
theorem cat1 (r : Fin 100000) (k : Fin 512) (h0 : ¬k.val < 128) (h1 : k.val < 256) :
    val_main_v21 (F := Ideal) x0 x1 x2 (ix2 r k)
      = val_main_v17 (F := Ideal) x0 x1 x2 (ix2 ⟨r.val, by omega⟩ ⟨k.val - 128, by omega⟩) := by
  unfold val_main_v21
  refine (concatenate_apply_piece _ _ _ (ix2 r k) 1 (by show (1 : Nat) < 4; omega) S100000x128 (val_main_v18 (F := Ideal) x0 x1 x2) rfl rfl
    128 rfl (ix2 r ⟨k.val - 128, by omega⟩) (fun b hb => off_axis r _ (ix2 r k) rfl b hb)
    (by show 128 + (k.val - 128) = k.val; omega)).trans ?_
  exact (val_main_v18_apply x0 x1 x2 _).trans
    (congrArg _ (funext fun a => match a with | ⟨0, _⟩ => rfl | ⟨1, _⟩ => rfl))

/-- Columns `256 … 383` are row `100000 + r` of the aggregate. -/
theorem cat2 (r : Fin 100000) (k : Fin 512) (h1 : ¬k.val < 256) (h2 : k.val < 384) :
    val_main_v21 (F := Ideal) x0 x1 x2 (ix2 r k)
      = val_main_v17 (F := Ideal) x0 x1 x2 (ix2 ⟨100000 + r.val, by omega⟩ ⟨k.val - 256, by omega⟩) := by
  unfold val_main_v21
  refine (concatenate_apply_piece _ _ _ (ix2 r k) 2 (by show (2 : Nat) < 4; omega) S100000x128 (val_main_v19 (F := Ideal) x0 x1 x2) rfl rfl
    256 rfl (ix2 r ⟨k.val - 256, by omega⟩) (fun b hb => off_axis r _ (ix2 r k) rfl b hb)
    (by show 256 + (k.val - 256) = k.val; omega)).trans ?_
  exact (val_main_v19_apply x0 x1 x2 _).trans
    (congrArg _ (funext fun a => match a with | ⟨0, _⟩ => rfl | ⟨1, _⟩ => rfl))

/-- Columns `384 … 511` are row `200000 + r` of the aggregate. -/
theorem cat3 (r : Fin 100000) (k : Fin 512) (h2 : ¬k.val < 384) :
    val_main_v21 (F := Ideal) x0 x1 x2 (ix2 r k)
      = val_main_v17 (F := Ideal) x0 x1 x2 (ix2 ⟨200000 + r.val, by omega⟩ ⟨k.val - 384, by omega⟩) := by
  unfold val_main_v21
  refine (concatenate_apply_piece _ _ _ (ix2 r k) 3 (by show (3 : Nat) < 4; omega) S100000x128 (val_main_v20 (F := Ideal) x0 x1 x2) rfl rfl
    384 rfl (ix2 r ⟨k.val - 384, by omega⟩) (fun b hb => off_axis r _ (ix2 r k) rfl b hb)
    (by show 384 + (k.val - 384) = k.val; omega)).trans ?_
  exact (val_main_v20_apply x0 x1 x2 _).trans
    (congrArg _ (funext fun a => match a with | ⟨0, _⟩ => rfl | ⟨1, _⟩ => rfl))

/-- The concatenation at `(r, k)` is entry `k` of node `r`'s feature row. -/
theorem feat_eq (r : Fin 100000) (k : Fin 512) :
    val_main_v21 (F := Ideal) x0 x1 x2 (ix2 r k) = Cert.Spec.featRow x0 (val_main_v17 (F := Ideal) x0 x1 x2) r k := by
  unfold Cert.Spec.featRow Cert.Spec.row4
  by_cases h0 : k.val < 128
  · rw [dif_pos h0]; exact cat0 x0 x1 x2 r k h0
  · rw [dif_neg h0]
    by_cases h1 : k.val < 256
    · rw [dif_pos h1]; exact cat1 x0 x1 x2 r k h0 h1
    · rw [dif_neg h1]
      by_cases h2 : k.val < 384
      · rw [dif_pos h2]; exact cat2 x0 x1 x2 r k h1 h2
      · rw [dif_neg h2]; exact cat3 x0 x1 x2 r k h2

/-! ## The stem and the skip: the feature row through a 512 × 256 weight and a bias -/

variable (x3 : (⟨S512x256, .f32⟩ : BufTy).Contents (Elt Ideal)) (x4 : (⟨S256, .f32⟩ : BufTy).Contents (Elt Ideal))

/-- The first product plus its bias is the stem of the feature row. -/
theorem v25_eq (r : Fin 100000) (c : Fin 256) :
    val_main_v25 (F := Ideal) x0 x1 x2 x3 x4 (ix2 r c) = Cert.Spec.stem (Cert.Spec.featRow x0 (val_main_v17 (F := Ideal) x0 x1 x2) r) x3 x4 c := by
  rw [val_main_v25_apply, val_main_v22_apply, v24_eq]
  unfold Cert.Spec.stem
  refine congrArg (· + x4 (ix1 c)) (Finset.sum_congr rfl fun k _ => ?_)
  rw [lidx22, ridx22, feat_eq]

theorem v26_eq (r : Fin 100000) (c : Fin 256) :
    val_main_v26 (F := Ideal) x0 x1 x2 x3 x4 (ix2 r c) = Cert.Spec.silu (Cert.Spec.stem (Cert.Spec.featRow x0 (val_main_v17 (F := Ideal) x0 x1 x2) r) x3 x4 c) := by
  rw [val_main_v26_apply, val_main_call0_v5_apply, val_main_call0_v4_apply, val_main_call0_cst_0_apply,
    val_main_call0_v3_apply, val_main_call0_v2_apply, val_main_call0_cst_apply, val_main_call0_v1_apply,
    val_main_call0_v0_apply, v25_eq]
  exact silu_eq _

variable (x13 : (⟨S512x256, .f32⟩ : BufTy).Contents (Elt Ideal)) (x14 : (⟨S256, .f32⟩ : BufTy).Contents (Elt Ideal))

/-- The skip product plus its bias is the stem of the feature row through the skip weight. -/
theorem v30_eq (r : Fin 100000) (c : Fin 256) :
    val_main_v30 (F := Ideal) x0 x1 x2 x13 x14 (ix2 r c) = Cert.Spec.stem (Cert.Spec.featRow x0 (val_main_v17 (F := Ideal) x0 x1 x2) r) x13 x14 c := by
  rw [val_main_v30_apply, val_main_v27_apply, v29_eq]
  unfold Cert.Spec.stem
  refine congrArg (· + x14 (ix1 c)) (Finset.sum_congr rfl fun k _ => ?_)
  rw [lidx27, ridx27, feat_eq]

/-! ## The first residual block -/

variable (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))

/-- The block's first product plus bias, on the activated stem. -/
theorem v34_eq (r : Fin 100000) (c : Fin 256) :
    val_main_v34 (F := Ideal) x0 x1 x2 x3 x4 x5 x6 (ix2 r c) = Cert.Spec.dense (fun k => Cert.Spec.silu (Cert.Spec.stem (Cert.Spec.featRow x0 (val_main_v17 (F := Ideal) x0 x1 x2) r) x3 x4 k)) x5 x6 c := by
  rw [val_main_v34_apply, val_main_v31_apply, v33_eq]
  unfold Cert.Spec.dense
  refine congrArg (· + x6 (ix1 c)) (Finset.sum_congr rfl fun k _ => ?_)
  rw [lidx31, ridx31, v26_eq]

theorem v35_eq (r : Fin 100000) (c : Fin 256) :
    val_main_v35 (F := Ideal) x0 x1 x2 x3 x4 x5 x6 (ix2 r c) = Cert.Spec.silu (Cert.Spec.dense (fun k => Cert.Spec.silu (Cert.Spec.stem (Cert.Spec.featRow x0 (val_main_v17 (F := Ideal) x0 x1 x2) r) x3 x4 k)) x5 x6 c) := by
  rw [val_main_v35_apply, val_main_call1_v5_apply, val_main_call1_v4_apply, val_main_call1_cst_0_apply,
    val_main_call1_v3_apply, val_main_call1_v2_apply, val_main_call1_cst_apply, val_main_call1_v1_apply,
    val_main_call1_v0_apply, v34_eq]
  exact silu_eq _

/-- The block's second product plus bias. -/
theorem v39_eq (r : Fin 100000) (c : Fin 256) :
    val_main_v39 (F := Ideal) x0 x1 x2 x3 x4 x5 x6 x7 x8 (ix2 r c)
      = Cert.Spec.dense (fun k => Cert.Spec.silu (Cert.Spec.dense (fun k => Cert.Spec.silu (Cert.Spec.stem (Cert.Spec.featRow x0 (val_main_v17 (F := Ideal) x0 x1 x2) r) x3 x4 k)) x5 x6 k)) x7 x8 c := by
  rw [val_main_v39_apply, val_main_v36_apply, v38_eq]
  unfold Cert.Spec.dense
  refine congrArg (· + x8 (ix1 c)) (Finset.sum_congr rfl fun k _ => ?_)
  rw [lidx36, ridx36, v35_eq]
  rfl

/-- Adding the block's input back gives the first block. -/
theorem v40_eq (r : Fin 100000) (c : Fin 256) :
    val_main_v40 (F := Ideal) x0 x1 x2 x3 x4 x5 x6 x7 x8 (ix2 r c) = (Cert.Spec.block (fun k => Cert.Spec.silu (Cert.Spec.stem (Cert.Spec.featRow x0 (val_main_v17 (F := Ideal) x0 x1 x2) r) x3 x4 k)) x5 x6 x7 x8) c := by
  rw [val_main_v40_apply, v39_eq, v26_eq]
  rfl

/-! ## The second residual block -/

variable (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal))

/-- The block's first product plus bias, on the first block's output. -/
theorem v44_eq (r : Fin 100000) (c : Fin 256) :
    val_main_v44 (F := Ideal) x0 x1 x2 x3 x4 x5 x6 x7 x8 x9 x10 (ix2 r c) = Cert.Spec.dense (Cert.Spec.block (fun k => Cert.Spec.silu (Cert.Spec.stem (Cert.Spec.featRow x0 (val_main_v17 (F := Ideal) x0 x1 x2) r) x3 x4 k)) x5 x6 x7 x8) x9 x10 c := by
  rw [val_main_v44_apply, val_main_v41_apply, v43_eq]
  unfold Cert.Spec.dense
  refine congrArg (· + x10 (ix1 c)) (Finset.sum_congr rfl fun k _ => ?_)
  rw [lidx41, ridx41, v40_eq]

theorem v45_eq (r : Fin 100000) (c : Fin 256) :
    val_main_v45 (F := Ideal) x0 x1 x2 x3 x4 x5 x6 x7 x8 x9 x10 (ix2 r c) = Cert.Spec.silu (Cert.Spec.dense (Cert.Spec.block (fun k => Cert.Spec.silu (Cert.Spec.stem (Cert.Spec.featRow x0 (val_main_v17 (F := Ideal) x0 x1 x2) r) x3 x4 k)) x5 x6 x7 x8) x9 x10 c) := by
  rw [val_main_v45_apply, val_main_call2_v5_apply, val_main_call2_v4_apply, val_main_call2_cst_0_apply,
    val_main_call2_v3_apply, val_main_call2_v2_apply, val_main_call2_cst_apply, val_main_call2_v1_apply,
    val_main_call2_v0_apply, v44_eq]
  exact silu_eq _

/-- The block's second product plus bias. -/
theorem v49_eq (r : Fin 100000) (c : Fin 256) :
    val_main_v49 (F := Ideal) x0 x1 x2 x3 x4 x5 x6 x7 x8 x9 x10 x11 x12 (ix2 r c)
      = Cert.Spec.dense (fun k => Cert.Spec.silu (Cert.Spec.dense (Cert.Spec.block (fun k => Cert.Spec.silu (Cert.Spec.stem (Cert.Spec.featRow x0 (val_main_v17 (F := Ideal) x0 x1 x2) r) x3 x4 k)) x5 x6 x7 x8) x9 x10 k)) x11 x12 c := by
  rw [val_main_v49_apply, val_main_v46_apply, v48_eq]
  unfold Cert.Spec.dense
  refine congrArg (· + x12 (ix1 c)) (Finset.sum_congr rfl fun k _ => ?_)
  rw [lidx46, ridx46, v45_eq]
  rfl

/-- Adding the block's input back gives the second block. -/
theorem v50_eq (r : Fin 100000) (c : Fin 256) :
    val_main_v50 (F := Ideal) x0 x1 x2 x3 x4 x5 x6 x7 x8 x9 x10 x11 x12 (ix2 r c)
      = Cert.Spec.block (Cert.Spec.block (fun k => Cert.Spec.silu (Cert.Spec.stem (Cert.Spec.featRow x0 (val_main_v17 (F := Ideal) x0 x1 x2) r) x3 x4 k)) x5 x6 x7 x8) x9 x10 x11 x12 c := by
  rw [val_main_v50_apply, v49_eq, v40_eq]
  rfl

/-- The output at `(r, c)`: the second block plus the skip. -/
theorem v51_eq (r : Fin 100000) (c : Fin 256) :
    val_main_v51 (F := Ideal) x0 x1 x2 x3 x4 x5 x6 x7 x8 x9 x10 x11 x12 x13 x14 (ix2 r c)
      = Cert.Spec.mlp (Cert.Spec.featRow x0 (val_main_v17 (F := Ideal) x0 x1 x2) r) x3 x4 x5 x6 x7 x8 x9 x10 x11 x12 x13 x14 c := by
  rw [val_main_v51_apply, v50_eq, v30_eq]
  rfl

end Layers

/-- **The reference is the layer, row by row**: its output at an index is the layer applied to the feature row of the
    index's node, at the index's column. -/
theorem ref_out (x0 : FVec Ideal S100000x128 .f32) (x1 x2 : IVec S640000 32) (x3 : FVec Ideal S512x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S256x256 .f32) (x12 : FVec Ideal S256 .f32) (x13 : FVec Ideal S512x256 .f32) (x14 : FVec Ideal S256 .f32) (i : S100000x256.Idx) :
    val_main_v51 (F := Ideal) x0 x1 x2 x3 x4 x5 x6 x7 x8 x9 x10 x11 x12 x13 x14 i
      = Cert.Spec.mlp (Cert.Spec.featRow x0 (val_main_v17 (F := Ideal) x0 x1 x2) (i 0)) x3 x4 x5 x6 x7 x8 x9 x10 x11 x12 x13 x14 (i 1) := by
  obtain ⟨r, c, rfl⟩ : ∃ (r : Fin 100000) (c : Fin 256), i = ix2 r c := ⟨i 0, i 1, eq_ix2 i⟩
  exact v51_eq x0 x1 x2 x3 x4 x13 x14 x5 x6 x7 x8 x9 x10 x11 x12 r c

end Cert.RefMlp

end
-- ==== Proof.RefRun.lean ====
import proofs.«413987_j66022237274250_3_alg».proof.Proof.RefStages
import Idealize.ShloMosaic.Lib.StableHlo.Run
import Idealize.ShloMosaic.Lib.Pipeline.Frame

/-! The reference's run, read in four stretches.

    The reference is a straight line of 81 array operations. Its run leaves every buffer at the fold of the operations'
    results over the launch contents. The line is cut after the three slices of the aggregate, after the stem and the
    skip, and after the first residual block; the fold over the whole line is the fold over the four pieces one after
    the other, and each piece's values are functions of the values the piece before left. -/

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## The line, in four pieces -/

/-- Up to the three 100000-row slices of the aggregate: the index fix-ups, the gather, the scatter-add, the slices. -/
abbrev opsA : List (HloOp τ sig (Elt F)) :=
  [ reshape main_arg0 main_v0 rfl shapeCasts_S100000x128_S1x100000x1x128,
    unary main_v0 main_v1 (broadcastInDim S3x100000x1x128 ![0, 1, 2, 3] bcast_S1x100000x1x128_S3x100000x1x128_0_1_2_3 : (⟨S1x100000x1x128, .f32⟩ : BufTy).Contents (Elt F) → (⟨S3x100000x1x128, .f32⟩ : BufTy).Contents (Elt F)),
    reshape main_v1 main_v2 rfl shapeCasts_S3x100000x1x128_S300000x128,
    nullary main_cst (constant S_ .f32 0x00000000#32),
    unary main_cst main_v3 (broadcastInDim S300000x128 ![] bcast_S_S300000x128 : (⟨S_, .f32⟩ : BufTy).Contents (Elt F) → (⟨S300000x128, .f32⟩ : BufTy).Contents (Elt F)),
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_arg2 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 300000#32),
    unary main_c_0 main_v6 (broadcastInDim S640000 ![] bcast_S_S640000 : (⟨S_, .i32⟩ : BufTy).Contents (Elt F) → (⟨S640000, .i32⟩ : BufTy).Contents (Elt F)),
    binary main_arg2 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_arg2 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_v2 main_v9 main_v10 ((fun x i => Host.gather gather_S300000x128_S640000x1_S640000x128_1_0_n_n_0_1_1128 x i) : (⟨S300000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_arg1 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 300000#32),
    unary main_c_2 main_v13 (broadcastInDim S640000 ![] bcast_S_S640000 : (⟨S_, .i32⟩ : BufTy).Contents (Elt F) → (⟨S640000, .i32⟩ : BufTy).Contents (Elt F)),
    binary main_arg1 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_arg1 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    ternary main_v3 main_v16 main_v10 main_v17 ((fun x i u => Host.scatterAdd scatter_S300000x128_S640000x1_S640000x128_1_0_0_1 x i u) : (⟨S300000x128, .f32⟩ : BufTy).Contents (Elt F) → (⟨S640000x1, .i32⟩ : BufTy).Contents (Elt F) → (⟨S640000x128, .f32⟩ : BufTy).Contents (Elt F) → (⟨S300000x128, .f32⟩ : BufTy).Contents (Elt F)),
    unary main_v17 main_v18 ((extractStridedSlice S100000x128 ![0, 0] · slices_S300000x128_S100000x128_0_0) : (⟨S300000x128, .f32⟩ : BufTy).Contents (Elt F) → (⟨S100000x128, .f32⟩ : BufTy).Contents (Elt F)),
    unary main_v17 main_v19 ((extractStridedSlice S100000x128 ![100000, 0] · slices_S300000x128_S100000x128_100000_0) : (⟨S300000x128, .f32⟩ : BufTy).Contents (Elt F) → (⟨S100000x128, .f32⟩ : BufTy).Contents (Elt F)),
    unary main_v17 main_v20 ((extractStridedSlice S100000x128 ![200000, 0] · slices_S300000x128_S100000x128_200000_0) : (⟨S300000x128, .f32⟩ : BufTy).Contents (Elt F) → (⟨S100000x128, .f32⟩ : BufTy).Contents (Elt F)) ]

/-- The feature rows joined, the stem with its `z · σ(z)`, and the skip. -/
abbrev opsB : List (HloOp τ sig (Elt F)) :=
  [ nary ![main_arg0, main_v18, main_v19, main_v20] main_v21 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    binary main_v21 main_arg3 main_v22 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg4 main_v23 (broadcastInDim S1x256 ![1] bcast_S256_S1x256_1 : (⟨S256, .f32⟩ : BufTy).Contents (Elt F) → (⟨S1x256, .f32⟩ : BufTy).Contents (Elt F)),
    unary main_v23 main_v24 (broadcastInDim S100000x256 ![0, 1] bcast_S1x256_S100000x256_0_1 : (⟨S1x256, .f32⟩ : BufTy).Contents (Elt F) → (⟨S100000x256, .f32⟩ : BufTy).Contents (Elt F)),
    binary main_v22 main_v24 main_v25 (addf : (⟨S100000x256, .f32⟩ : BufTy).Contents (Elt F) → (⟨S100000x256, .f32⟩ : BufTy).Contents (Elt F) → (⟨S100000x256, .f32⟩ : BufTy).Contents (Elt F)),
    TRef.unary (TRef.of (T := ⟨S100000x256, .f32⟩) main_v25) (TRef.of (T := ⟨S100000x256, .f32⟩) main_call0_v0) Host.negf,
    TRef.unary (TRef.of (T := ⟨S100000x256, .f32⟩) main_call0_v0) (TRef.of (T := ⟨S100000x256, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S100000x256, .f32⟩) main_call0_v2) (broadcastInDim S100000x256 ![] bcast_S_S100000x256),
    TRef.binary (TRef.of (T := ⟨S100000x256, .f32⟩) main_call0_v2) (TRef.of (T := ⟨S100000x256, .f32⟩) main_call0_v1) (TRef.of (T := ⟨S100000x256, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S100000x256, .f32⟩) main_call0_v4) (broadcastInDim S100000x256 ![] bcast_S_S100000x256),
    TRef.binary (TRef.of (T := ⟨S100000x256, .f32⟩) main_call0_v4) (TRef.of (T := ⟨S100000x256, .f32⟩) main_call0_v3) (TRef.of (T := ⟨S100000x256, .f32⟩) main_call0_v5) Host.divf,
    TRef.binary (TRef.of (T := ⟨S100000x256, .f32⟩) main_v25) (TRef.of (T := ⟨S100000x256, .f32⟩) main_call0_v5) (TRef.of (T := ⟨S100000x256, .f32⟩) main_v26) mulf,
    binary main_v21 main_arg13 main_v27 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg14 main_v28 (broadcastInDim S1x256 ![1] bcast_S256_S1x256_1 : (⟨S256, .f32⟩ : BufTy).Contents (Elt F) → (⟨S1x256, .f32⟩ : BufTy).Contents (Elt F)),
    unary main_v28 main_v29 (broadcastInDim S100000x256 ![0, 1] bcast_S1x256_S100000x256_0_1 : (⟨S1x256, .f32⟩ : BufTy).Contents (Elt F) → (⟨S100000x256, .f32⟩ : BufTy).Contents (Elt F)),
    binary main_v27 main_v29 main_v30 (addf : (⟨S100000x256, .f32⟩ : BufTy).Contents (Elt F) → (⟨S100000x256, .f32⟩ : BufTy).Contents (Elt F) → (⟨S100000x256, .f32⟩ : BufTy).Contents (Elt F)) ]

/-- The first residual block. -/
abbrev opsC : List (HloOp τ sig (Elt F)) :=
  [ binary main_v26 main_arg5 main_v31 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v32 (broadcastInDim S1x256 ![1] bcast_S256_S1x256_1 : (⟨S256, .f32⟩ : BufTy).Contents (Elt F) → (⟨S1x256, .f32⟩ : BufTy).Contents (Elt F)),
    unary main_v32 main_v33 (broadcastInDim S100000x256 ![0, 1] bcast_S1x256_S100000x256_0_1 : (⟨S1x256, .f32⟩ : BufTy).Contents (Elt F) → (⟨S100000x256, .f32⟩ : BufTy).Contents (Elt F)),
    binary main_v31 main_v33 main_v34 (addf : (⟨S100000x256, .f32⟩ : BufTy).Contents (Elt F) → (⟨S100000x256, .f32⟩ : BufTy).Contents (Elt F) → (⟨S100000x256, .f32⟩ : BufTy).Contents (Elt F)),
    TRef.unary (TRef.of (T := ⟨S100000x256, .f32⟩) main_v34) (TRef.of (T := ⟨S100000x256, .f32⟩) main_call1_v0) Host.negf,
    TRef.unary (TRef.of (T := ⟨S100000x256, .f32⟩) main_call1_v0) (TRef.of (T := ⟨S100000x256, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S100000x256, .f32⟩) main_call1_v2) (broadcastInDim S100000x256 ![] bcast_S_S100000x256),
    TRef.binary (TRef.of (T := ⟨S100000x256, .f32⟩) main_call1_v2) (TRef.of (T := ⟨S100000x256, .f32⟩) main_call1_v1) (TRef.of (T := ⟨S100000x256, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S100000x256, .f32⟩) main_call1_v4) (broadcastInDim S100000x256 ![] bcast_S_S100000x256),
    TRef.binary (TRef.of (T := ⟨S100000x256, .f32⟩) main_call1_v4) (TRef.of (T := ⟨S100000x256, .f32⟩) main_call1_v3) (TRef.of (T := ⟨S100000x256, .f32⟩) main_call1_v5) Host.divf,
    TRef.binary (TRef.of (T := ⟨S100000x256, .f32⟩) main_v34) (TRef.of (T := ⟨S100000x256, .f32⟩) main_call1_v5) (TRef.of (T := ⟨S100000x256, .f32⟩) main_v35) mulf,
    binary main_v35 main_arg7 main_v36 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg8 main_v37 (broadcastInDim S1x256 ![1] bcast_S256_S1x256_1 : (⟨S256, .f32⟩ : BufTy).Contents (Elt F) → (⟨S1x256, .f32⟩ : BufTy).Contents (Elt F)),
    unary main_v37 main_v38 (broadcastInDim S100000x256 ![0, 1] bcast_S1x256_S100000x256_0_1 : (⟨S1x256, .f32⟩ : BufTy).Contents (Elt F) → (⟨S100000x256, .f32⟩ : BufTy).Contents (Elt F)),
    binary main_v36 main_v38 main_v39 (addf : (⟨S100000x256, .f32⟩ : BufTy).Contents (Elt F) → (⟨S100000x256, .f32⟩ : BufTy).Contents (Elt F) → (⟨S100000x256, .f32⟩ : BufTy).Contents (Elt F)),
    binary main_v39 main_v26 main_v40 (addf : (⟨S100000x256, .f32⟩ : BufTy).Contents (Elt F) → (⟨S100000x256, .f32⟩ : BufTy).Contents (Elt F) → (⟨S100000x256, .f32⟩ : BufTy).Contents (Elt F)) ]

/-- The second residual block and the two closing sums. -/
abbrev opsD : List (HloOp τ sig (Elt F)) :=
  [ binary main_v40 main_arg9 main_v41 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg10 main_v42 (broadcastInDim S1x256 ![1] bcast_S256_S1x256_1 : (⟨S256, .f32⟩ : BufTy).Contents (Elt F) → (⟨S1x256, .f32⟩ : BufTy).Contents (Elt F)),
    unary main_v42 main_v43 (broadcastInDim S100000x256 ![0, 1] bcast_S1x256_S100000x256_0_1 : (⟨S1x256, .f32⟩ : BufTy).Contents (Elt F) → (⟨S100000x256, .f32⟩ : BufTy).Contents (Elt F)),
    binary main_v41 main_v43 main_v44 (addf : (⟨S100000x256, .f32⟩ : BufTy).Contents (Elt F) → (⟨S100000x256, .f32⟩ : BufTy).Contents (Elt F) → (⟨S100000x256, .f32⟩ : BufTy).Contents (Elt F)),
    TRef.unary (TRef.of (T := ⟨S100000x256, .f32⟩) main_v44) (TRef.of (T := ⟨S100000x256, .f32⟩) main_call2_v0) Host.negf,
    TRef.unary (TRef.of (T := ⟨S100000x256, .f32⟩) main_call2_v0) (TRef.of (T := ⟨S100000x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S100000x256, .f32⟩) main_call2_v2) (broadcastInDim S100000x256 ![] bcast_S_S100000x256),
    TRef.binary (TRef.of (T := ⟨S100000x256, .f32⟩) main_call2_v2) (TRef.of (T := ⟨S100000x256, .f32⟩) main_call2_v1) (TRef.of (T := ⟨S100000x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S100000x256, .f32⟩) main_call2_v4) (broadcastInDim S100000x256 ![] bcast_S_S100000x256),
    TRef.binary (TRef.of (T := ⟨S100000x256, .f32⟩) main_call2_v4) (TRef.of (T := ⟨S100000x256, .f32⟩) main_call2_v3) (TRef.of (T := ⟨S100000x256, .f32⟩) main_call2_v5) Host.divf,
    TRef.binary (TRef.of (T := ⟨S100000x256, .f32⟩) main_v44) (TRef.of (T := ⟨S100000x256, .f32⟩) main_call2_v5) (TRef.of (T := ⟨S100000x256, .f32⟩) main_v45) mulf,
    binary main_v45 main_arg11 main_v46 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg12 main_v47 (broadcastInDim S1x256 ![1] bcast_S256_S1x256_1 : (⟨S256, .f32⟩ : BufTy).Contents (Elt F) → (⟨S1x256, .f32⟩ : BufTy).Contents (Elt F)),
    unary main_v47 main_v48 (broadcastInDim S100000x256 ![0, 1] bcast_S1x256_S100000x256_0_1 : (⟨S1x256, .f32⟩ : BufTy).Contents (Elt F) → (⟨S100000x256, .f32⟩ : BufTy).Contents (Elt F)),
    binary main_v46 main_v48 main_v49 (addf : (⟨S100000x256, .f32⟩ : BufTy).Contents (Elt F) → (⟨S100000x256, .f32⟩ : BufTy).Contents (Elt F) → (⟨S100000x256, .f32⟩ : BufTy).Contents (Elt F)),
    binary main_v49 main_v40 main_v50 (addf : (⟨S100000x256, .f32⟩ : BufTy).Contents (Elt F) → (⟨S100000x256, .f32⟩ : BufTy).Contents (Elt F) → (⟨S100000x256, .f32⟩ : BufTy).Contents (Elt F)),
    binary main_v50 main_v30 main_v51 (addf : (⟨S100000x256, .f32⟩ : BufTy).Contents (Elt F) → (⟨S100000x256, .f32⟩ : BufTy).Contents (Elt F) → (⟨S100000x256, .f32⟩ : BufTy).Contents (Elt F)) ]

set_option maxRecDepth 8192 in
set_option maxHeartbeats 4000000 in
/-- The program is the four pieces in a row. -/
theorem main_eq (c : Dev nD) : main (F := F) c = seq (opsA ++ opsB ++ opsC ++ opsD) := rfl

theorem scopedRefs_eq : (Finset.univ.filter fun b : Ref sig .tc => b.isScoped) = ∅ := by decide
theorem scopedSems_eq : (Finset.univ.filter fun sm : SemLoc sig => sm.isScoped .tc) = ∅ := by decide

/-! Every operation touches only the core's own buffers, and none allocates. -/

set_option maxRecDepth 8192 in
theorem subA : (opsA : List (HloOp τ sig (Elt F))).Forall fun op => op.bufs ⊆ tcRefs τ sig :=
  ⟨reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub ..⟩

theorem freshA : (opsA : List (HloOp τ sig (Elt F))).Forall fun op => op.fresh = ∅ := by
  simp only [List.Forall]; repeat' constructor

set_option maxRecDepth 8192 in
theorem subB : (opsB : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem freshB : (opsB : List (HloOp τ sig (Elt F))).Forall fun op => op.fresh = ∅ := by
  simp only [List.Forall]; repeat' constructor

set_option maxRecDepth 8192 in
theorem subC : (opsC : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩

theorem freshC : (opsC : List (HloOp τ sig (Elt F))).Forall fun op => op.fresh = ∅ := by
  simp only [List.Forall]; repeat' constructor

set_option maxRecDepth 8192 in
theorem subD : (opsD : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub ..⟩

theorem freshD : (opsD : List (HloOp τ sig (Elt F))).Forall fun op => op.fresh = ∅ := by
  simp only [List.Forall]; repeat' constructor

theorem ops_sub : (opsA ++ opsB ++ opsC ++ opsD : List (HloOp τ sig (Elt F))).Forall fun op => op.bufs ⊆ tcRefs τ sig :=
  List.forall_append.mpr ⟨List.forall_append.mpr ⟨List.forall_append.mpr ⟨subA, subB⟩, subC⟩, subD⟩

theorem ops_fresh : ∀ op ∈ (opsA ++ opsB ++ opsC ++ opsD : List (HloOp τ sig (Elt F))), op.fresh = ∅ :=
  List.forall_iff_forall_mem.mp
    (List.forall_append.mpr ⟨List.forall_append.mpr ⟨List.forall_append.mpr ⟨freshA, freshB⟩, freshC⟩, freshD⟩)

/-- Every fair execution ends with each buffer at the fold of the four pieces over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (opsA ++ opsB ++ opsC ++ opsD) (launchContents m d) (Proc.devRef .tc b) :=
  run_seq scopedRefs_eq scopedSems_eq defs main (fun _ => opsA ++ opsB ++ opsC ++ opsD) main_eq (fun _ => ops_sub) m ρ
    (fun _ => ops_fresh)

/-! ## The contents after each piece -/

/-- The contents after the first piece. -/
def WA (m : (ℓ : Loc nD τ sig) → Buf (Elt F) ℓ) (c : Dev nD) : Valuation τ sig (Elt F) := after opsA (launchContents m c)

/-- The contents after the second piece. -/
def WB (m : (ℓ : Loc nD τ sig) → Buf (Elt F) ℓ) (c : Dev nD) : Valuation τ sig (Elt F) := after opsB (WA m c)

/-- The contents after the third piece. -/
def WC (m : (ℓ : Loc nD τ sig) → Buf (Elt F) ℓ) (c : Dev nD) : Valuation τ sig (Elt F) := after opsC (WB m c)

/-- The contents after the whole line. -/
def WD (m : (ℓ : Loc nD τ sig) → Buf (Elt F) ℓ) (c : Dev nD) : Valuation τ sig (Elt F) := after opsD (WC m c)

/-- The fold over the whole line is the four folds, one after the other. -/
theorem after_all (m : (ℓ : Loc nD τ sig) → Buf (Elt F) ℓ) (c : Dev nD) :
    after (opsA ++ opsB ++ opsC ++ opsD) (launchContents m c) = WD m c := by
  rw [StableHlo.after_append, StableHlo.after_append, StableHlo.after_append]
  rfl

/-! ## What a piece does not write, it keeps -/

/-- The buffers piece A writes. -/
abbrev wrA : List (Ref sig .tc) := [main_v0, main_v1, main_v2, main_cst, main_v3, main_c, main_v4, main_v5, main_c_0, main_v6, main_v7, main_v8, main_v9, main_v10, main_c_1, main_v11, main_v12, main_c_2, main_v13, main_v14, main_v15, main_v16, main_v17, main_v18, main_v19, main_v20]

theorem writesA : (opsA : List (HloOp τ sig (Elt F))).Forall fun op => op.writes ⊆ ((wrA).map (Proc.devRef (τ := τ) .tc)).toFinset := by
  simp only [List.Forall, nullary_writes, unary_writes, binary_writes, ternary_writes, reshape_writes, nary_writes, Finset.singleton_subset_iff, List.mem_toFinset, List.mem_map]
  repeat' apply And.intro
  all_goals exact ⟨_, by decide, rfl⟩

/-- A buffer piece A does not write is after it as before it. -/
theorem keepA (V : Valuation τ sig (Elt F)) (r : Ref sig .tc) (hr : r ∉ wrA) :
    after (opsA : List (HloOp τ sig (Elt F))) V (Proc.devRef .tc r) = V (Proc.devRef .tc r) :=
  after_of_writes_sub opsA V writesA hr

/-- The buffers piece B writes. -/
abbrev wrB : List (Ref sig .tc) := [main_v21, main_v22, main_v23, main_v24, main_v25, main_call0_v0, main_call0_v1, main_call0_cst, main_call0_v2, main_call0_v3, main_call0_cst_0, main_call0_v4, main_call0_v5, main_v26, main_v27, main_v28, main_v29, main_v30]

theorem writesB : (opsB : List (HloOp τ sig (Elt F))).Forall fun op => op.writes ⊆ ((wrB).map (Proc.devRef (τ := τ) .tc)).toFinset := by
  simp only [List.Forall, nullary_writes, unary_writes, binary_writes, ternary_writes, reshape_writes, nary_writes, Finset.singleton_subset_iff, List.mem_toFinset, List.mem_map]
  repeat' apply And.intro
  all_goals exact ⟨_, by decide, rfl⟩

/-- A buffer piece B does not write is after it as before it. -/
theorem keepB (V : Valuation τ sig (Elt F)) (r : Ref sig .tc) (hr : r ∉ wrB) :
    after (opsB : List (HloOp τ sig (Elt F))) V (Proc.devRef .tc r) = V (Proc.devRef .tc r) :=
  after_of_writes_sub opsB V writesB hr

/-- The buffers piece C writes. -/
abbrev wrC : List (Ref sig .tc) := [main_v31, main_v32, main_v33, main_v34, main_call1_v0, main_call1_v1, main_call1_cst, main_call1_v2, main_call1_v3, main_call1_cst_0, main_call1_v4, main_call1_v5, main_v35, main_v36, main_v37, main_v38, main_v39, main_v40]

theorem writesC : (opsC : List (HloOp τ sig (Elt F))).Forall fun op => op.writes ⊆ ((wrC).map (Proc.devRef (τ := τ) .tc)).toFinset := by
  simp only [List.Forall, nullary_writes, unary_writes, binary_writes, ternary_writes, reshape_writes, nary_writes, Finset.singleton_subset_iff, List.mem_toFinset, List.mem_map]
  repeat' apply And.intro
  all_goals exact ⟨_, by decide, rfl⟩

/-- A buffer piece C does not write is after it as before it. -/
theorem keepC (V : Valuation τ sig (Elt F)) (r : Ref sig .tc) (hr : r ∉ wrC) :
    after (opsC : List (HloOp τ sig (Elt F))) V (Proc.devRef .tc r) = V (Proc.devRef .tc r) :=
  after_of_writes_sub opsC V writesC hr

/-- The buffers piece D writes. -/
abbrev wrD : List (Ref sig .tc) := [main_v41, main_v42, main_v43, main_v44, main_call2_v0, main_call2_v1, main_call2_cst, main_call2_v2, main_call2_v3, main_call2_cst_0, main_call2_v4, main_call2_v5, main_v45, main_v46, main_v47, main_v48, main_v49, main_v50, main_v51]

theorem writesD : (opsD : List (HloOp τ sig (Elt F))).Forall fun op => op.writes ⊆ ((wrD).map (Proc.devRef (τ := τ) .tc)).toFinset := by
  simp only [List.Forall, nullary_writes, unary_writes, binary_writes, ternary_writes, reshape_writes, nary_writes, Finset.singleton_subset_iff, List.mem_toFinset, List.mem_map]
  repeat' apply And.intro
  all_goals exact ⟨_, by decide, rfl⟩

/-- A buffer piece D does not write is after it as before it. -/
theorem keepD (V : Valuation τ sig (Elt F)) (r : Ref sig .tc) (hr : r ∉ wrD) :
    after (opsD : List (HloOp τ sig (Elt F))) V (Proc.devRef .tc r) = V (Proc.devRef .tc r) :=
  after_of_writes_sub opsD V writesD hr

/-! The fifteen arguments pass through every piece. -/

theorem keepA_arg0 (m : (ℓ : Loc nD τ sig) → Buf (Elt F) ℓ) (c : Dev nD) :
    WA m c (Proc.devRef .tc main_arg0) = m ((c.tc : Thread nD τ).loc main_arg0) :=
  (keepA (launchContents m c) main_arg0 (by decide)).trans (rfl)
theorem keepA_arg1 (m : (ℓ : Loc nD τ sig) → Buf (Elt F) ℓ) (c : Dev nD) :
    WA m c (Proc.devRef .tc main_arg1) = m ((c.tc : Thread nD τ).loc main_arg1) :=
  (keepA (launchContents m c) main_arg1 (by decide)).trans (rfl)
theorem keepA_arg2 (m : (ℓ : Loc nD τ sig) → Buf (Elt F) ℓ) (c : Dev nD) :
    WA m c (Proc.devRef .tc main_arg2) = m ((c.tc : Thread nD τ).loc main_arg2) :=
  (keepA (launchContents m c) main_arg2 (by decide)).trans (rfl)
theorem keepA_arg3 (m : (ℓ : Loc nD τ sig) → Buf (Elt F) ℓ) (c : Dev nD) :
    WA m c (Proc.devRef .tc main_arg3) = m ((c.tc : Thread nD τ).loc main_arg3) :=
  (keepA (launchContents m c) main_arg3 (by decide)).trans (rfl)
theorem keepA_arg4 (m : (ℓ : Loc nD τ sig) → Buf (Elt F) ℓ) (c : Dev nD) :
    WA m c (Proc.devRef .tc main_arg4) = m ((c.tc : Thread nD τ).loc main_arg4) :=
  (keepA (launchContents m c) main_arg4 (by decide)).trans (rfl)
theorem keepA_arg5 (m : (ℓ : Loc nD τ sig) → Buf (Elt F) ℓ) (c : Dev nD) :
    WA m c (Proc.devRef .tc main_arg5) = m ((c.tc : Thread nD τ).loc main_arg5) :=
  (keepA (launchContents m c) main_arg5 (by decide)).trans (rfl)
theorem keepA_arg6 (m : (ℓ : Loc nD τ sig) → Buf (Elt F) ℓ) (c : Dev nD) :
    WA m c (Proc.devRef .tc main_arg6) = m ((c.tc : Thread nD τ).loc main_arg6) :=
  (keepA (launchContents m c) main_arg6 (by decide)).trans (rfl)
theorem keepA_arg7 (m : (ℓ : Loc nD τ sig) → Buf (Elt F) ℓ) (c : Dev nD) :
    WA m c (Proc.devRef .tc main_arg7) = m ((c.tc : Thread nD τ).loc main_arg7) :=
  (keepA (launchContents m c) main_arg7 (by decide)).trans (rfl)
theorem keepA_arg8 (m : (ℓ : Loc nD τ sig) → Buf (Elt F) ℓ) (c : Dev nD) :
    WA m c (Proc.devRef .tc main_arg8) = m ((c.tc : Thread nD τ).loc main_arg8) :=
  (keepA (launchContents m c) main_arg8 (by decide)).trans (rfl)
theorem keepA_arg9 (m : (ℓ : Loc nD τ sig) → Buf (Elt F) ℓ) (c : Dev nD) :
    WA m c (Proc.devRef .tc main_arg9) = m ((c.tc : Thread nD τ).loc main_arg9) :=
  (keepA (launchContents m c) main_arg9 (by decide)).trans (rfl)
theorem keepA_arg10 (m : (ℓ : Loc nD τ sig) → Buf (Elt F) ℓ) (c : Dev nD) :
    WA m c (Proc.devRef .tc main_arg10) = m ((c.tc : Thread nD τ).loc main_arg10) :=
  (keepA (launchContents m c) main_arg10 (by decide)).trans (rfl)
theorem keepA_arg11 (m : (ℓ : Loc nD τ sig) → Buf (Elt F) ℓ) (c : Dev nD) :
    WA m c (Proc.devRef .tc main_arg11) = m ((c.tc : Thread nD τ).loc main_arg11) :=
  (keepA (launchContents m c) main_arg11 (by decide)).trans (rfl)
theorem keepA_arg12 (m : (ℓ : Loc nD τ sig) → Buf (Elt F) ℓ) (c : Dev nD) :
    WA m c (Proc.devRef .tc main_arg12) = m ((c.tc : Thread nD τ).loc main_arg12) :=
  (keepA (launchContents m c) main_arg12 (by decide)).trans (rfl)
theorem keepA_arg13 (m : (ℓ : Loc nD τ sig) → Buf (Elt F) ℓ) (c : Dev nD) :
    WA m c (Proc.devRef .tc main_arg13) = m ((c.tc : Thread nD τ).loc main_arg13) :=
  (keepA (launchContents m c) main_arg13 (by decide)).trans (rfl)
theorem keepA_arg14 (m : (ℓ : Loc nD τ sig) → Buf (Elt F) ℓ) (c : Dev nD) :
    WA m c (Proc.devRef .tc main_arg14) = m ((c.tc : Thread nD τ).loc main_arg14) :=
  (keepA (launchContents m c) main_arg14 (by decide)).trans (rfl)

theorem keepB_arg0 (m : (ℓ : Loc nD τ sig) → Buf (Elt F) ℓ) (c : Dev nD) :
    WB m c (Proc.devRef .tc main_arg0) = m ((c.tc : Thread nD τ).loc main_arg0) :=
  (keepB (WA m c) main_arg0 (by decide)).trans (keepA_arg0 m c)
theorem keepB_arg1 (m : (ℓ : Loc nD τ sig) → Buf (Elt F) ℓ) (c : Dev nD) :
    WB m c (Proc.devRef .tc main_arg1) = m ((c.tc : Thread nD τ).loc main_arg1) :=
  (keepB (WA m c) main_arg1 (by decide)).trans (keepA_arg1 m c)
theorem keepB_arg2 (m : (ℓ : Loc nD τ sig) → Buf (Elt F) ℓ) (c : Dev nD) :
    WB m c (Proc.devRef .tc main_arg2) = m ((c.tc : Thread nD τ).loc main_arg2) :=
  (keepB (WA m c) main_arg2 (by decide)).trans (keepA_arg2 m c)
theorem keepB_arg3 (m : (ℓ : Loc nD τ sig) → Buf (Elt F) ℓ) (c : Dev nD) :
    WB m c (Proc.devRef .tc main_arg3) = m ((c.tc : Thread nD τ).loc main_arg3) :=
  (keepB (WA m c) main_arg3 (by decide)).trans (keepA_arg3 m c)
theorem keepB_arg4 (m : (ℓ : Loc nD τ sig) → Buf (Elt F) ℓ) (c : Dev nD) :
    WB m c (Proc.devRef .tc main_arg4) = m ((c.tc : Thread nD τ).loc main_arg4) :=
  (keepB (WA m c) main_arg4 (by decide)).trans (keepA_arg4 m c)
theorem keepB_arg5 (m : (ℓ : Loc nD τ sig) → Buf (Elt F) ℓ) (c : Dev nD) :
    WB m c (Proc.devRef .tc main_arg5) = m ((c.tc : Thread nD τ).loc main_arg5) :=
  (keepB (WA m c) main_arg5 (by decide)).trans (keepA_arg5 m c)
theorem keepB_arg6 (m : (ℓ : Loc nD τ sig) → Buf (Elt F) ℓ) (c : Dev nD) :
    WB m c (Proc.devRef .tc main_arg6) = m ((c.tc : Thread nD τ).loc main_arg6) :=
  (keepB (WA m c) main_arg6 (by decide)).trans (keepA_arg6 m c)
theorem keepB_arg7 (m : (ℓ : Loc nD τ sig) → Buf (Elt F) ℓ) (c : Dev nD) :
    WB m c (Proc.devRef .tc main_arg7) = m ((c.tc : Thread nD τ).loc main_arg7) :=
  (keepB (WA m c) main_arg7 (by decide)).trans (keepA_arg7 m c)
theorem keepB_arg8 (m : (ℓ : Loc nD τ sig) → Buf (Elt F) ℓ) (c : Dev nD) :
    WB m c (Proc.devRef .tc main_arg8) = m ((c.tc : Thread nD τ).loc main_arg8) :=
  (keepB (WA m c) main_arg8 (by decide)).trans (keepA_arg8 m c)
theorem keepB_arg9 (m : (ℓ : Loc nD τ sig) → Buf (Elt F) ℓ) (c : Dev nD) :
    WB m c (Proc.devRef .tc main_arg9) = m ((c.tc : Thread nD τ).loc main_arg9) :=
  (keepB (WA m c) main_arg9 (by decide)).trans (keepA_arg9 m c)
theorem keepB_arg10 (m : (ℓ : Loc nD τ sig) → Buf (Elt F) ℓ) (c : Dev nD) :
    WB m c (Proc.devRef .tc main_arg10) = m ((c.tc : Thread nD τ).loc main_arg10) :=
  (keepB (WA m c) main_arg10 (by decide)).trans (keepA_arg10 m c)
theorem keepB_arg11 (m : (ℓ : Loc nD τ sig) → Buf (Elt F) ℓ) (c : Dev nD) :
    WB m c (Proc.devRef .tc main_arg11) = m ((c.tc : Thread nD τ).loc main_arg11) :=
  (keepB (WA m c) main_arg11 (by decide)).trans (keepA_arg11 m c)
theorem keepB_arg12 (m : (ℓ : Loc nD τ sig) → Buf (Elt F) ℓ) (c : Dev nD) :
    WB m c (Proc.devRef .tc main_arg12) = m ((c.tc : Thread nD τ).loc main_arg12) :=
  (keepB (WA m c) main_arg12 (by decide)).trans (keepA_arg12 m c)
theorem keepB_arg13 (m : (ℓ : Loc nD τ sig) → Buf (Elt F) ℓ) (c : Dev nD) :
    WB m c (Proc.devRef .tc main_arg13) = m ((c.tc : Thread nD τ).loc main_arg13) :=
  (keepB (WA m c) main_arg13 (by decide)).trans (keepA_arg13 m c)
theorem keepB_arg14 (m : (ℓ : Loc nD τ sig) → Buf (Elt F) ℓ) (c : Dev nD) :
    WB m c (Proc.devRef .tc main_arg14) = m ((c.tc : Thread nD τ).loc main_arg14) :=
  (keepB (WA m c) main_arg14 (by decide)).trans (keepA_arg14 m c)

theorem keepC_arg0 (m : (ℓ : Loc nD τ sig) → Buf (Elt F) ℓ) (c : Dev nD) :
    WC m c (Proc.devRef .tc main_arg0) = m ((c.tc : Thread nD τ).loc main_arg0) :=
  (keepC (WB m c) main_arg0 (by decide)).trans (keepB_arg0 m c)
theorem keepC_arg1 (m : (ℓ : Loc nD τ sig) → Buf (Elt F) ℓ) (c : Dev nD) :
    WC m c (Proc.devRef .tc main_arg1) = m ((c.tc : Thread nD τ).loc main_arg1) :=
  (keepC (WB m c) main_arg1 (by decide)).trans (keepB_arg1 m c)
theorem keepC_arg2 (m : (ℓ : Loc nD τ sig) → Buf (Elt F) ℓ) (c : Dev nD) :
    WC m c (Proc.devRef .tc main_arg2) = m ((c.tc : Thread nD τ).loc main_arg2) :=
  (keepC (WB m c) main_arg2 (by decide)).trans (keepB_arg2 m c)
theorem keepC_arg3 (m : (ℓ : Loc nD τ sig) → Buf (Elt F) ℓ) (c : Dev nD) :
    WC m c (Proc.devRef .tc main_arg3) = m ((c.tc : Thread nD τ).loc main_arg3) :=
  (keepC (WB m c) main_arg3 (by decide)).trans (keepB_arg3 m c)
theorem keepC_arg4 (m : (ℓ : Loc nD τ sig) → Buf (Elt F) ℓ) (c : Dev nD) :
    WC m c (Proc.devRef .tc main_arg4) = m ((c.tc : Thread nD τ).loc main_arg4) :=
  (keepC (WB m c) main_arg4 (by decide)).trans (keepB_arg4 m c)
theorem keepC_arg5 (m : (ℓ : Loc nD τ sig) → Buf (Elt F) ℓ) (c : Dev nD) :
    WC m c (Proc.devRef .tc main_arg5) = m ((c.tc : Thread nD τ).loc main_arg5) :=
  (keepC (WB m c) main_arg5 (by decide)).trans (keepB_arg5 m c)
theorem keepC_arg6 (m : (ℓ : Loc nD τ sig) → Buf (Elt F) ℓ) (c : Dev nD) :
    WC m c (Proc.devRef .tc main_arg6) = m ((c.tc : Thread nD τ).loc main_arg6) :=
  (keepC (WB m c) main_arg6 (by decide)).trans (keepB_arg6 m c)
theorem keepC_arg7 (m : (ℓ : Loc nD τ sig) → Buf (Elt F) ℓ) (c : Dev nD) :
    WC m c (Proc.devRef .tc main_arg7) = m ((c.tc : Thread nD τ).loc main_arg7) :=
  (keepC (WB m c) main_arg7 (by decide)).trans (keepB_arg7 m c)
theorem keepC_arg8 (m : (ℓ : Loc nD τ sig) → Buf (Elt F) ℓ) (c : Dev nD) :
    WC m c (Proc.devRef .tc main_arg8) = m ((c.tc : Thread nD τ).loc main_arg8) :=
  (keepC (WB m c) main_arg8 (by decide)).trans (keepB_arg8 m c)
theorem keepC_arg9 (m : (ℓ : Loc nD τ sig) → Buf (Elt F) ℓ) (c : Dev nD) :
    WC m c (Proc.devRef .tc main_arg9) = m ((c.tc : Thread nD τ).loc main_arg9) :=
  (keepC (WB m c) main_arg9 (by decide)).trans (keepB_arg9 m c)
theorem keepC_arg10 (m : (ℓ : Loc nD τ sig) → Buf (Elt F) ℓ) (c : Dev nD) :
    WC m c (Proc.devRef .tc main_arg10) = m ((c.tc : Thread nD τ).loc main_arg10) :=
  (keepC (WB m c) main_arg10 (by decide)).trans (keepB_arg10 m c)
theorem keepC_arg11 (m : (ℓ : Loc nD τ sig) → Buf (Elt F) ℓ) (c : Dev nD) :
    WC m c (Proc.devRef .tc main_arg11) = m ((c.tc : Thread nD τ).loc main_arg11) :=
  (keepC (WB m c) main_arg11 (by decide)).trans (keepB_arg11 m c)
theorem keepC_arg12 (m : (ℓ : Loc nD τ sig) → Buf (Elt F) ℓ) (c : Dev nD) :
    WC m c (Proc.devRef .tc main_arg12) = m ((c.tc : Thread nD τ).loc main_arg12) :=
  (keepC (WB m c) main_arg12 (by decide)).trans (keepB_arg12 m c)
theorem keepC_arg13 (m : (ℓ : Loc nD τ sig) → Buf (Elt F) ℓ) (c : Dev nD) :
    WC m c (Proc.devRef .tc main_arg13) = m ((c.tc : Thread nD τ).loc main_arg13) :=
  (keepC (WB m c) main_arg13 (by decide)).trans (keepB_arg13 m c)
theorem keepC_arg14 (m : (ℓ : Loc nD τ sig) → Buf (Elt F) ℓ) (c : Dev nD) :
    WC m c (Proc.devRef .tc main_arg14) = m ((c.tc : Thread nD τ).loc main_arg14) :=
  (keepC (WB m c) main_arg14 (by decide)).trans (keepB_arg14 m c)

theorem keepD_arg0 (m : (ℓ : Loc nD τ sig) → Buf (Elt F) ℓ) (c : Dev nD) :
    WD m c (Proc.devRef .tc main_arg0) = m ((c.tc : Thread nD τ).loc main_arg0) :=
  (keepD (WC m c) main_arg0 (by decide)).trans (keepC_arg0 m c)
theorem keepD_arg1 (m : (ℓ : Loc nD τ sig) → Buf (Elt F) ℓ) (c : Dev nD) :
    WD m c (Proc.devRef .tc main_arg1) = m ((c.tc : Thread nD τ).loc main_arg1) :=
  (keepD (WC m c) main_arg1 (by decide)).trans (keepC_arg1 m c)
theorem keepD_arg2 (m : (ℓ : Loc nD τ sig) → Buf (Elt F) ℓ) (c : Dev nD) :
    WD m c (Proc.devRef .tc main_arg2) = m ((c.tc : Thread nD τ).loc main_arg2) :=
  (keepD (WC m c) main_arg2 (by decide)).trans (keepC_arg2 m c)
theorem keepD_arg3 (m : (ℓ : Loc nD τ sig) → Buf (Elt F) ℓ) (c : Dev nD) :
    WD m c (Proc.devRef .tc main_arg3) = m ((c.tc : Thread nD τ).loc main_arg3) :=
  (keepD (WC m c) main_arg3 (by decide)).trans (keepC_arg3 m c)
theorem keepD_arg4 (m : (ℓ : Loc nD τ sig) → Buf (Elt F) ℓ) (c : Dev nD) :
    WD m c (Proc.devRef .tc main_arg4) = m ((c.tc : Thread nD τ).loc main_arg4) :=
  (keepD (WC m c) main_arg4 (by decide)).trans (keepC_arg4 m c)
theorem keepD_arg5 (m : (ℓ : Loc nD τ sig) → Buf (Elt F) ℓ) (c : Dev nD) :
    WD m c (Proc.devRef .tc main_arg5) = m ((c.tc : Thread nD τ).loc main_arg5) :=
  (keepD (WC m c) main_arg5 (by decide)).trans (keepC_arg5 m c)
theorem keepD_arg6 (m : (ℓ : Loc nD τ sig) → Buf (Elt F) ℓ) (c : Dev nD) :
    WD m c (Proc.devRef .tc main_arg6) = m ((c.tc : Thread nD τ).loc main_arg6) :=
  (keepD (WC m c) main_arg6 (by decide)).trans (keepC_arg6 m c)
theorem keepD_arg7 (m : (ℓ : Loc nD τ sig) → Buf (Elt F) ℓ) (c : Dev nD) :
    WD m c (Proc.devRef .tc main_arg7) = m ((c.tc : Thread nD τ).loc main_arg7) :=
  (keepD (WC m c) main_arg7 (by decide)).trans (keepC_arg7 m c)
theorem keepD_arg8 (m : (ℓ : Loc nD τ sig) → Buf (Elt F) ℓ) (c : Dev nD) :
    WD m c (Proc.devRef .tc main_arg8) = m ((c.tc : Thread nD τ).loc main_arg8) :=
  (keepD (WC m c) main_arg8 (by decide)).trans (keepC_arg8 m c)
theorem keepD_arg9 (m : (ℓ : Loc nD τ sig) → Buf (Elt F) ℓ) (c : Dev nD) :
    WD m c (Proc.devRef .tc main_arg9) = m ((c.tc : Thread nD τ).loc main_arg9) :=
  (keepD (WC m c) main_arg9 (by decide)).trans (keepC_arg9 m c)
theorem keepD_arg10 (m : (ℓ : Loc nD τ sig) → Buf (Elt F) ℓ) (c : Dev nD) :
    WD m c (Proc.devRef .tc main_arg10) = m ((c.tc : Thread nD τ).loc main_arg10) :=
  (keepD (WC m c) main_arg10 (by decide)).trans (keepC_arg10 m c)
theorem keepD_arg11 (m : (ℓ : Loc nD τ sig) → Buf (Elt F) ℓ) (c : Dev nD) :
    WD m c (Proc.devRef .tc main_arg11) = m ((c.tc : Thread nD τ).loc main_arg11) :=
  (keepD (WC m c) main_arg11 (by decide)).trans (keepC_arg11 m c)
theorem keepD_arg12 (m : (ℓ : Loc nD τ sig) → Buf (Elt F) ℓ) (c : Dev nD) :
    WD m c (Proc.devRef .tc main_arg12) = m ((c.tc : Thread nD τ).loc main_arg12) :=
  (keepD (WC m c) main_arg12 (by decide)).trans (keepC_arg12 m c)
theorem keepD_arg13 (m : (ℓ : Loc nD τ sig) → Buf (Elt F) ℓ) (c : Dev nD) :
    WD m c (Proc.devRef .tc main_arg13) = m ((c.tc : Thread nD τ).loc main_arg13) :=
  (keepD (WC m c) main_arg13 (by decide)).trans (keepC_arg13 m c)
theorem keepD_arg14 (m : (ℓ : Loc nD τ sig) → Buf (Elt F) ℓ) (c : Dev nD) :
    WD m c (Proc.devRef .tc main_arg14) = m ((c.tc : Thread nD τ).loc main_arg14) :=
  (keepD (WC m c) main_arg14 (by decide)).trans (keepC_arg14 m c)

/-! ## The values each piece leaves for the next -/

/-- One piece's fold read at a buffer: each operation's result at its own buffer is its function of the operands'
    contents, and at any other buffer what was there; a four-operand join keeps each operand at its own buffer. -/
macro "piece_results" : tactic =>
  `(tactic| (simp (disch := decide) only [after_cons, after_nil,
      nullary_result', unary_result', binary_result', ternary_result', reshape_result', nary4_result',
      nullary_result_ne', unary_result_ne', binary_result_ne', ternary_result_ne', reshape_result_ne', nary_result_ne']))

/-- The first third of the aggregate. -/
theorem hA18 (m : (ℓ : Loc nD τ sig) → Buf (Elt F) ℓ) (c : Dev nD) :
    WA m c (Proc.devRef .tc main_v18) = val_main_v18 (F := F) (m ((c.tc : Thread nD τ).loc main_arg0)) (m ((c.tc : Thread nD τ).loc main_arg1)) (m ((c.tc : Thread nD τ).loc main_arg2)) := by
  unfold WA
  after_results_simp <;> rfl

/-- The second third of the aggregate. -/
theorem hA19 (m : (ℓ : Loc nD τ sig) → Buf (Elt F) ℓ) (c : Dev nD) :
    WA m c (Proc.devRef .tc main_v19) = val_main_v19 (F := F) (m ((c.tc : Thread nD τ).loc main_arg0)) (m ((c.tc : Thread nD τ).loc main_arg1)) (m ((c.tc : Thread nD τ).loc main_arg2)) := by
  unfold WA
  after_results_simp <;> rfl

/-- The last third of the aggregate. -/
theorem hA20 (m : (ℓ : Loc nD τ sig) → Buf (Elt F) ℓ) (c : Dev nD) :
    WA m c (Proc.devRef .tc main_v20) = val_main_v20 (F := F) (m ((c.tc : Thread nD τ).loc main_arg0)) (m ((c.tc : Thread nD τ).loc main_arg1)) (m ((c.tc : Thread nD τ).loc main_arg2)) := by
  unfold WA
  after_results_simp <;> rfl

/-- The hidden rows: `z · σ(z)` of the stem. -/
theorem hB26 (m : (ℓ : Loc nD τ sig) → Buf (Elt F) ℓ) (c : Dev nD) :
    WB m c (Proc.devRef .tc main_v26) = val_main_v26 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold WB
  piece_results
  rw [hA18, hA19, hA20, keepA_arg0, keepA_arg3, keepA_arg4]
  rfl

/-- The skip rows. -/
theorem hB30 (m : (ℓ : Loc nD τ sig) → Buf (Elt F) ℓ) (c : Dev nD) :
    WB m c (Proc.devRef .tc main_v30) = val_main_v30 (F := F) (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14)) := by
  unfold WB
  piece_results
  rw [hA18, hA19, hA20, keepA_arg0, keepA_arg13, keepA_arg14]
  rfl

/-- The rows after the first residual block. -/
theorem hC40 (m : (ℓ : Loc nD τ sig) → Buf (Elt F) ℓ) (c : Dev nD) :
    WC m c (Proc.devRef .tc main_v40) = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold WC
  after_results_simp
  rw [hB26, keepB_arg5, keepB_arg6, keepB_arg7, keepB_arg8]
  rfl

/-- The skip rows pass through the first residual block. -/
theorem hC30 (m : (ℓ : Loc nD τ sig) → Buf (Elt F) ℓ) (c : Dev nD) :
    WC m c (Proc.devRef .tc main_v30) = val_main_v30 (F := F) (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14)) :=
  (keepC (WB m c) main_v30 (by decide)).trans (hB30 m c)

/-- The output rows. -/
theorem hD51 (m : (ℓ : Loc nD τ sig) → Buf (Elt F) ℓ) (c : Dev nD) :
    WD m c (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold WD
  after_results_simp
  rw [hC40, hC30, keepC_arg9, keepC_arg10, keepC_arg11, keepC_arg12]
  rfl

/-! ## The run -/

/-- On every device, for any float values, from any memory with zero counters: every weakly fair execution of the
    reference terminates with its result at the composed stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = Cert.ReferenceIdeal.Read.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v51).trans ((congrFun (after_all m c) _).trans (hD51 m c)),
      (h c main_arg0).trans ((congrFun (after_all m c) _).trans (keepD_arg0 m c)),
      (h c main_arg1).trans ((congrFun (after_all m c) _).trans (keepD_arg1 m c)),
      (h c main_arg2).trans ((congrFun (after_all m c) _).trans (keepD_arg2 m c)),
      (h c main_arg3).trans ((congrFun (after_all m c) _).trans (keepD_arg3 m c)),
      (h c main_arg4).trans ((congrFun (after_all m c) _).trans (keepD_arg4 m c)),
      (h c main_arg5).trans ((congrFun (after_all m c) _).trans (keepD_arg5 m c)),
      (h c main_arg6).trans ((congrFun (after_all m c) _).trans (keepD_arg6 m c)),
      (h c main_arg7).trans ((congrFun (after_all m c) _).trans (keepD_arg7 m c)),
      (h c main_arg8).trans ((congrFun (after_all m c) _).trans (keepD_arg8 m c)),
      (h c main_arg9).trans ((congrFun (after_all m c) _).trans (keepD_arg9 m c)),
      (h c main_arg10).trans ((congrFun (after_all m c) _).trans (keepD_arg10 m c)),
      (h c main_arg11).trans ((congrFun (after_all m c) _).trans (keepD_arg11 m c)),
      (h c main_arg12).trans ((congrFun (after_all m c) _).trans (keepD_arg12 m c)),
      (h c main_arg13).trans ((congrFun (after_all m c) _).trans (keepD_arg13 m c)),
      (h c main_arg14).trans ((congrFun (after_all m c) _).trans (keepD_arg14 m c))⟩)
    (run_fold m ρ)

end Cert.RefRun

end
-- ==== Proof.lean ====
/- The layer computed two ways.

   The reference tiles the node features three times, gathers one row per edge at the source index, scatter-adds the
   gathered rows at the target index into a zero [300000, 128] aggregate, lays each node's own features and its rows of
   the three thirds of the aggregate end to end (512 numbers), and sends that row through `silu (f · W_in + b_in)`,
   two residual blocks `h ↦ silu (h · W₁ + b₁) · W₂ + b₂ + h` and the skip `f · W_skip + b_skip`. The kernel gathers
   from the untiled features at `source mod 100000`, scatter-adds the same way, and runs the dense part on blocks of
   2000 nodes, the 512-wide contraction cut into two 256-wide ones and every matrix operand narrowed to bf16 first.

   Over the extended reals narrowing changes nothing, the logistic function is `1 / (1 + e^(-z))` on both sides, and a
   finite sum may be regrouped; so the two results are equal as soon as the gathered rows are, which holds where every
   source index lies in `[-300000, 300000)` (there the reference's gather does not clamp, and row `R` of the tiled
   features is row `R mod 100000` of the features). That range is the precondition's last conjunct; the finiteness of
   the float inputs is never used. -/
import proofs.«413987_j66022237274250_3_alg».proof.Defs
import proofs.«413987_j66022237274250_3_alg».proof.Proof.Gen.Kernel
import proofs.«413987_j66022237274250_3_alg».proof.Proof.Gen.Kernel.Skeleton
import proofs.«413987_j66022237274250_3_alg».proof.Proof.Gen.Kernel.Launch
import proofs.«413987_j66022237274250_3_alg».proof.Proof.Gen.Kernel.Points
import proofs.«413987_j66022237274250_3_alg».proof.Proof.Gen.Kernel.Frame
import proofs.«413987_j66022237274250_3_alg».proof.Proof.Gen.KernelIdeal
import proofs.«413987_j66022237274250_3_alg».proof.Proof.Gen.KernelIdeal.Skeleton
import proofs.«413987_j66022237274250_3_alg».proof.Proof.Gen.KernelIdeal.Launch
import proofs.«413987_j66022237274250_3_alg».proof.Proof.Gen.KernelIdeal.Points
import proofs.«413987_j66022237274250_3_alg».proof.Proof.Gen.KernelIdeal.Frame
import proofs.«413987_j66022237274250_3_alg».proof.Proof.Gen.KernelIdeal.Value
import proofs.«413987_j66022237274250_3_alg».proof.Proof.Gen.ReferenceIdeal
import proofs.«413987_j66022237274250_3_alg».proof.Proof.Gen.Pre_finite_inputs
import proofs.«413987_j66022237274250_3_alg».proof.Proof.SrcRange
import proofs.«413987_j66022237274250_3_alg».proof.Proof.KernelFinal
import proofs.«413987_j66022237274250_3_alg».proof.Proof.AggEq
import proofs.«413987_j66022237274250_3_alg».proof.Proof.RefMlp
import proofs.«413987_j66022237274250_3_alg».proof.Proof.RefRun
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.RefRun.run (F := Ideal) m ρ)

/-- From memories that agree on the arguments both programs end at the layer of the specification over the kernel's
    arguments and aggregate: the kernel block by block, the reference stage by stage, the two aggregates one array
    because the source indices are in range. -/
theorem algebraic : Cert.algebraic_KernelIdeal_ReferenceIdeal := by
  intro m ρ m' ρ' hpre hagree
  have hsrc : ∀ (c : Dev Cert.KernelIdeal.nD) (e : Fin 640000),
      -300000 ≤ ((m ((c.tc : Thread Cert.KernelIdeal.nD Cert.KernelIdeal.τ).loc Cert.KernelIdeal.main_arg2) : IVec Cert.KernelIdeal.S640000 32) (ValueIdx.ix1 e)).toInt
      ∧ ((m ((c.tc : Thread Cert.KernelIdeal.nD Cert.KernelIdeal.τ).loc Cert.KernelIdeal.main_arg2) : IVec Cert.KernelIdeal.S640000 32) (ValueIdx.ix1 e)).toInt < 300000 :=
    fun c e => Cert.SrcRange.src_range _ _ _ _ _ _ _ _ _ _ _ _ _ _ _ (hpre c) (ValueIdx.ix1 e)
  refine ⟨fun c => Cert.KernelFinal.G m c, Cert.KernelFinal.run m ρ, ?_⟩
  refine (θ_run Cert.ReferenceIdeal.defs _ _).mono (fun r h c => ⟨(h c).1.trans ?_, (h c).2⟩)
    (Cert.RefRun.run (F := Ideal) m' ρ')
  obtain ⟨a0, a1, a2, a3, a4, a5, a6, a7, a8, a9, a10, a11, a12, a13, a14⟩ := hagree c
  rw [a0, a1, a2, a3, a4, a5, a6, a7, a8, a9, a10, a11, a12, a13, a14]
  funext i
  rw [Cert.RefMlp.ref_out, ← Cert.AggEq.agg_eq m c (hsrc c)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
